-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S2x500000 : Shape := ⟨2, ![2, 500000]⟩
abbrev S500000x128 : Shape := ⟨2, ![500000, 128]⟩
abbrev S128x128 : Shape := ⟨2, ![128, 128]⟩
abbrev S128 : Shape := ⟨1, ![128]⟩
abbrev S384x128 : Shape := ⟨2, ![384, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S128 .f32) (main_arg10 : FVec F S384x128 .f32) (main_arg11 : FVec F S128 .f32) (main_arg12 : FVec F S128x1 .f32) (main_arg13 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x128 .f32 := Host.absf main_arg10
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg12
  let main_cst_18 : FVec F S_ .f32 := constant S_ .f32 0x7F800000#32
  let main_v50 : FVec F S128x1 .f32 := broadcastInDim S128x1 ![] bcast_S_S128x1 main_cst_18
  fn_part3 (F := F) main_arg13 main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S384x128 .f32) (main_arg11 : FVec F S128 .f32) (main_arg12 : FVec F S128x1 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x1600000 32) (main_arg2 : IVec S2x500000 32) (main_arg3 : FVec F S500000x128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S384x128 .f32) (main_arg11 : FVec F S128 .f32) (main_arg12 : FVec F S128x1 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg3
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x1600000 : Shape := ⟨2, ![2, 1600000]⟩
abbrev S2x500000 : Shape := ⟨2, ![2, 500000]⟩
abbrev S500000x128 : Shape := ⟨2, ![500000, 128]⟩
abbrev S128x128 : Shape := ⟨2, ![128, 128]⟩
abbrev S128 : Shape := ⟨1, ![128]⟩
abbrev S384x128 : Shape := ⟨2, ![384, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S5000x128 : Shape := ⟨2, ![5000, 128]⟩
abbrev S1x500000 : Shape := ⟨2, ![1, 500000]⟩
abbrev S500000 : Shape := ⟨1, ![500000]⟩
abbrev S500000x1 : Shape := ⟨2, ![500000, 1]⟩
abbrev S1x1 : Shape := ⟨2, ![1, 1]⟩
abbrev S5000x1 : Shape := ⟨2, ![5000, 1]⟩
abbrev S5000 : Shape := ⟨1, ![5000]⟩

abbrev nBuf : Space → Nat
  | .hbm => 107
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S2x500000, .i32⟩
  | .hbm, ⟨3, _⟩ => ⟨S500000x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S384x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S128x128, .bf16⟩
  | .hbm, ⟨19, _⟩ => ⟨S128x128, .bf16⟩
  | .hbm, ⟨20, _⟩ => ⟨S1x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S50000x128, .f32⟩
  | .hbm, ⟨32, _⟩ => ⟨S1600000x1, .i32⟩
  | .hbm, ⟨33, _⟩ => ⟨S50000x128, .f32⟩
  | .hbm, ⟨34, _⟩ => ⟨S_, .f32⟩
  | .hbm, ⟨35, _⟩ => ⟨S1600000x1, .f32⟩
  | .hbm, ⟨36, _⟩ => ⟨S_, .f32⟩
  | .hbm, ⟨37, _⟩ => ⟨S50000x1, .f32⟩
  | .hbm, ⟨38, _⟩ => ⟨S1600000x1, .i32⟩
  | .hbm, ⟨39, _⟩ => ⟨S50000x1, .f32⟩
  | .hbm, ⟨40, _⟩ => ⟨S_, .f32⟩
  | .hbm, ⟨41, _⟩ => ⟨S50000x1, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S128x128, .bf16⟩
  | .hbm, ⟨47, _⟩ => ⟨S128x128, .bf16⟩
  | .hbm, ⟨48, _⟩ => ⟨S1x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S50000x128, .f32⟩
  | .hbm, ⟨60, _⟩ => ⟨S1600000x1, .i32⟩
  | .hbm, ⟨61, _⟩ => ⟨S50000x128, .f32⟩
  | .hbm, ⟨62, _⟩ => ⟨S_, .f32⟩
  | .hbm, ⟨63, _⟩ => ⟨S1600000x1, .f32⟩
  | .hbm, ⟨64, _⟩ => ⟨S_, .f32⟩
  | .hbm, ⟨65, _⟩ => ⟨S50000x1, .f32⟩
  | .hbm, ⟨66, _⟩ => ⟨S1600000x1, .i32⟩
  | .hbm, ⟨67, _⟩ => ⟨S50000x1, .f32⟩
  | .hbm, ⟨68, _⟩ => ⟨S_, .f32⟩
  | .hbm, ⟨69, _⟩ => ⟨S50000x1, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x500000, .i32⟩
  | .hbm, ⟨75, _⟩ => ⟨S500000, .i32⟩
  | .hbm, ⟨76, _⟩ => ⟨S1x500000, .i32⟩
  | .hbm, ⟨77, _⟩ => ⟨S500000, .i32⟩
  | .hbm, ⟨78, _⟩ => ⟨S_, .i32⟩
  | .hbm, ⟨79, _⟩ => ⟨S500000, .i32⟩
  | .hbm, ⟨80, _⟩ => ⟨S500000, .i1⟩
  | .hbm, ⟨81, _⟩ => ⟨S_, .i32⟩
  | .hbm, ⟨82, _⟩ => ⟨S500000, .i32⟩
  | .hbm, ⟨83, _⟩ => ⟨S500000, .i32⟩
  | .hbm, ⟨84, _⟩ => ⟨S500000, .i32⟩
  | .hbm, ⟨85, _⟩ => ⟨S500000x1, .i32⟩
  | .hbm, ⟨86, _⟩ => ⟨S500000x128, .f32⟩
  | .hbm, ⟨87, _⟩ => ⟨S_, .i32⟩
  | .hbm, ⟨88, _⟩ => ⟨S500000, .i32⟩
  | .hbm, ⟨89, _⟩ => ⟨S500000, .i1⟩
  | .hbm, ⟨90, _⟩ => ⟨S_, .i32⟩
  | .hbm, ⟨91, _⟩ => ⟨S500000, .i32⟩
  | .hbm, ⟨92, _⟩ => ⟨S500000, .i32⟩
  | .hbm, ⟨93, _⟩ => ⟨S500000, .i32⟩
  | .hbm, ⟨94, _⟩ => ⟨S500000x1, .i32⟩
  | .hbm, ⟨95, _⟩ => ⟨S500000x128, .f32⟩
  | .hbm, ⟨96, _⟩ => ⟨S128x128, .f32⟩
  | .hbm, ⟨97, _⟩ => ⟨S128x128, .bf16⟩
  | .hbm, ⟨98, _⟩ => ⟨S128x128, .f32⟩
  | .hbm, ⟨99, _⟩ => ⟨S128x128, .bf16⟩
  | .hbm, ⟨100, _⟩ => ⟨S128x128, .f32⟩
  | .hbm, ⟨101, _⟩ => ⟨S128x128, .bf16⟩
  | .hbm, ⟨102, _⟩ => ⟨S1x128, .f32⟩
  | .hbm, ⟨103, _⟩ => ⟨S1x128, .f32⟩
  | .hbm, ⟨104, _⟩ => ⟨S1x1, .f32⟩
  | .hbm, ⟨105, _⟩ => ⟨S500000x1, .f32⟩
  | .hbm, ⟨106, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .bf16⟩
  | .local _ .vmem, ⟨25, _⟩ => ⟨S128x128, .bf16⟩
  | .local _ .vmem, ⟨26, _⟩ => ⟨S128x128, .bf16⟩
  | .local _ .vmem, ⟨27, _⟩ => ⟨S1x128, .f32⟩
  | .local _ .vmem, ⟨28, _⟩ => ⟨S1x128, .f32⟩
  | .local _ .vmem, ⟨29, _⟩ => ⟨S1x1, .f32⟩
  | .local _ .vmem, ⟨30, _⟩ => ⟨S5000x1, .f32⟩
  | .local _ .vmem, ⟨31, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem9_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  shapeCasts_S128_S1x128 : S128.ShapeCasts S1x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128x1_S1x128 : S128x1.ShapeCasts S1x128
  shapeCasts_S1_S1x1 : S1.ShapeCasts S1x1
  reduces_S5000x128_S5000 : S5000x128.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000x1_S1600000x1_S1600000x1_1_0_0_1_wf : ScatterDims.WF S50000x1 S1600000x1 S1600000x1 [1] [0] [0] 1
  dot_S5000x128_S128x128_S5000x128_1_0_0_1_n_n_wf : DotDims.WF S5000x128 S128x128 S5000x128 [1] [0] [0] [1] [] []
  gather_S50000x128_S500000x1_S500000x128_1_0_n_n_0_1_1128_wf : GatherDims.WF S50000x128 S500000x1 S500000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S500000x128.size a
  hwx2_2 : ∀ i : grid2.Coords, EltTy.bits .f32 = 32 ∨ (Rect.block (s := S500000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x1.size a ≤ S500000x1.size a
  hwx2_9 : ∀ i : grid2.Coords, EltTy.bits .f32 = 32 ∨ (Rect.block (s := S500000x1) S5000x1.size (cc2_transform_9 i) (hinb2_9 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v67) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v73) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v74) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v75) S5000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S2x500000 : Shape := ⟨2, ![2, 500000]⟩
abbrev S500000x128 : Shape := ⟨2, ![500000, 128]⟩
abbrev S128x128 : Shape := ⟨2, ![128, 128]⟩
abbrev S128 : Shape := ⟨1, ![128]⟩
abbrev S384x128 : Shape := ⟨2, ![384, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S1x500000 : Shape := ⟨2, ![1, 500000]⟩
abbrev S500000 : Shape := ⟨1, ![500000]⟩
abbrev S500000x1 : Shape := ⟨2, ![500000, 1]⟩
abbrev S500000x384 : Shape := ⟨2, ![500000, 384]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S2x500000, .i32⟩
  | .hbm, ⟨3, _⟩ => ⟨S500000x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S384x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S50000x128, .f32⟩
  | .hbm, ⟨29, _⟩ => ⟨S1600000x1, .i32⟩
  | .hbm, ⟨30, _⟩ => ⟨S50000x128, .f32⟩
  | .hbm, ⟨31, _⟩ => ⟨S_, .f32⟩
  | .hbm, ⟨32, _⟩ => ⟨S1600000x1, .f32⟩
  | .hbm, ⟨33, _⟩ => ⟨S_, .f32⟩
  | .hbm, ⟨34, _⟩ => ⟨S50000x1, .f32⟩
  | .hbm, ⟨35, _⟩ => ⟨S1600000x1, .i32⟩
  | .hbm, ⟨36, _⟩ => ⟨S50000x1, .f32⟩
  | .hbm, ⟨37, _⟩ => ⟨S_, .f32⟩
  | .hbm, ⟨38, _⟩ => ⟨S50000x1, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S50000x128, .f32⟩
  | .hbm, ⟨62, _⟩ => ⟨S1600000x1, .i32⟩
  | .hbm, ⟨63, _⟩ => ⟨S50000x128, .f32⟩
  | .hbm, ⟨64, _⟩ => ⟨S_, .f32⟩
  | .hbm, ⟨65, _⟩ => ⟨S1600000x1, .f32⟩
  | .hbm, ⟨66, _⟩ => ⟨S_, .f32⟩
  | .hbm, ⟨67, _⟩ => ⟨S50000x1, .f32⟩
  | .hbm, ⟨68, _⟩ => ⟨S1600000x1, .i32⟩
  | .hbm, ⟨69, _⟩ => ⟨S50000x1, .f32⟩
  | .hbm, ⟨70, _⟩ => ⟨S_, .f32⟩
  | .hbm, ⟨71, _⟩ => ⟨S50000x1, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S1x500000, .i32⟩
  | .hbm, ⟨85, _⟩ => ⟨S500000, .i32⟩
  | .hbm, ⟨86, _⟩ => ⟨S1x500000, .i32⟩
  | .hbm, ⟨87, _⟩ => ⟨S500000, .i32⟩
  | .hbm, ⟨88, _⟩ => ⟨S_, .i32⟩
  | .hbm, ⟨89, _⟩ => ⟨S500000, .i32⟩
  | .hbm, ⟨90, _⟩ => ⟨S500000, .i1⟩
  | .hbm, ⟨91, _⟩ => ⟨S_, .i32⟩
  | .hbm, ⟨92, _⟩ => ⟨S500000, .i32⟩
  | .hbm, ⟨93, _⟩ => ⟨S500000, .i32⟩
  | .hbm, ⟨94, _⟩ => ⟨S500000, .i32⟩
  | .hbm, ⟨95, _⟩ => ⟨S500000x1, .i32⟩
  | .hbm, ⟨96, _⟩ => ⟨S500000x128, .f32⟩
  | .hbm, ⟨97, _⟩ => ⟨S_, .i32⟩
  | .hbm, ⟨98, _⟩ => ⟨S500000, .i32⟩
  | .hbm, ⟨99, _⟩ => ⟨S500000, .i1⟩
  | .hbm, ⟨100, _⟩ => ⟨S_, .i32⟩
  | .hbm, ⟨101, _⟩ => ⟨S500000, .i32⟩
  | .hbm, ⟨102, _⟩ => ⟨S500000, .i32⟩
  | .hbm, ⟨103, _⟩ => ⟨S500000, .i32⟩
  | .hbm, ⟨104, _⟩ => ⟨S500000x1, .i32⟩
  | .hbm, ⟨105, _⟩ => ⟨S500000x128, .f32⟩
  | .hbm, ⟨106, _⟩ => ⟨S500000x384, .f32⟩
  | .hbm, ⟨107, _⟩ => ⟨S500000x128, .f32⟩
  | .hbm, ⟨108, _⟩ => ⟨S1x128, .f32⟩
  | .hbm, ⟨109, _⟩ => ⟨S500000x128, .f32⟩
  | .hbm, ⟨110, _⟩ => ⟨S500000x128, .f32⟩
  | .hbm, ⟨111, _⟩ => ⟨S_, .f32⟩
  | .hbm, ⟨112, _⟩ => ⟨S500000x128, .f32⟩
  | .hbm, ⟨113, _⟩ => ⟨S500000x128, .f32⟩
  | .hbm, ⟨114, _⟩ => ⟨S500000x1, .f32⟩
  | .hbm, ⟨115, _⟩ => ⟨S1x1, .f32⟩
  | .hbm, ⟨116, _⟩ => ⟨S500000x1, .f32⟩
  | .hbm, ⟨117, _⟩ => ⟨S500000x1, .f32⟩
  | .hbm, ⟨118, _⟩ => ⟨S500000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call1_cst : Ref sig .tc := ⟨.hbm, 81, rfl⟩
abbrev main_call1_v0 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_10 : Ref sig .tc := ⟨.hbm, 88, rfl⟩
abbrev main_v58 : Ref sig .tc := ⟨.hbm, 89, rfl⟩
abbrev main_v59 : Ref sig .tc := ⟨.hbm, 90, rfl⟩
abbrev main_c_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_12 : Ref sig .tc := ⟨.hbm, 97, rfl⟩
abbrev main_v65 : Ref sig .tc := ⟨.hbm, 98, rfl⟩
abbrev main_v66 : Ref sig .tc := ⟨.hbm, 99, rfl⟩
abbrev main_c_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_call2_cst : Ref sig .tc := ⟨.hbm, 111, rfl⟩
abbrev main_call2_v0 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000x1_S1600000x1_S1600000x1_1_0_0_1_wf : ScatterDims.WF S50000x1 S1600000x1 S1600000x1 [1] [0] [0] 1
  dot_S50000x128_S128x128_S50000x128_1_0_0_1_n_n_wf : DotDims.WF S50000x128 S128x128 S50000x128 [1] [0] [0] [1] [] []
  gather_S50000x128_S500000x1_S500000x128_1_0_n_n_0_1_1128_wf : GatherDims.WF S50000x128 S500000x1 S500000x128 [1] [0] [] [0] [] 1 ![1, 128]
  dot_S500000x384_S384x128_S500000x128_1_0_0_1_n_n_wf : DotDims.WF S500000x384 S384x128 S500000x128 [1] [0] [0] [1] [] []
  dot_S500000x128_S128x1_S500000x1_1_0_0_1_n_n_wf : DotDims.WF S500000x128 S128x1 S500000x1 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.Spec.lean ====
/-
  What the three kernels compute, as functions of whole arrays over the extended reals.

  A GraphSAGE layer with mean aggregation takes node features `x`, the mean `mean` of each node's in-neighbours'
  features, two square weight matrices and a bias row, and returns, at node `p` and channel `q`,

      max ((∑ k, mean (p, k) * wl (k, q) + ∑ k, x (p, k) * wr (k, q)) + b (0, q)) 0

  (`layer`). The link decoder takes, for each pair `p`, the two endpoint embeddings `zu p`, `zv p` and the pair's
  attributes `ea p`, three square blocks of the first decoder matrix, its bias row, the second decoder matrix as a
  row and its bias, and returns

      (∑ q, max ((((∑ k, zu (p, k) * wu (k, q)) + ∑ k, zv (p, k) * wv (k, q)) + ∑ k, ea (p, k) * we (k, q))
                  + bm1 (0, q)) 0 * wm2 (0, q)) + bm2 (0, 0)

  (`decode`). Both are stated for any number of rows, so that one statement serves a block and the whole array.
-/
import Idealize.ShloMosaic.PureOps.Ideal
import Idealize.ShloMosaic.Lib.ValueIdx

noncomputable section

open scoped BigOperators

namespace Cert.Sage

open Idealize.ShloMosaic Idealize.ShloMosaic.ValueIdx

/-- One layer: the rectified sum of the aggregated features times `wl`, the node's own features times `wr`, and the
    bias, at node `j 0` and channel `j 1`. -/
def layer {N : Nat} (x mean : (⟨2, ![N, 128]⟩ : Shape).Idx → EReal) (wl wr : (⟨2, ![128, 128]⟩ : Shape).Idx → EReal)
    (b : (⟨2, ![1, 128]⟩ : Shape).Idx → EReal) : (⟨2, ![N, 128]⟩ : Shape).Idx → EReal := fun j =>
  max ((∑ k : Fin 128, mean (ix2 (j 0) k) * wl (ix2 k (j 1)) + ∑ k : Fin 128, x (ix2 (j 0) k) * wr (ix2 k (j 1)))
    + b (ix2 0 (j 1))) 0

/-- The hidden layer of the decoder at pair `p` and channel `q`, before it is rectified: the three products and the
    bias, added left to right. -/
def hidden {P : Nat} (zu zv ea : (⟨2, ![P, 128]⟩ : Shape).Idx → EReal) (wu wv we : (⟨2, ![128, 128]⟩ : Shape).Idx → EReal)
    (bm1 : (⟨2, ![1, 128]⟩ : Shape).Idx → EReal) (p : Fin P) (q : Fin 128) : EReal :=
  (((∑ k : Fin 128, zu (ix2 p k) * wu (ix2 k q)) + ∑ k : Fin 128, zv (ix2 p k) * wv (ix2 k q))
    + ∑ k : Fin 128, ea (ix2 p k) * we (ix2 k q)) + bm1 (ix2 0 q)

/-- The decoder: the rectified hidden layer against the second matrix's row, summed over channels, plus its bias. -/
def decode {P : Nat} (zu zv ea : (⟨2, ![P, 128]⟩ : Shape).Idx → EReal) (wu wv we : (⟨2, ![128, 128]⟩ : Shape).Idx → EReal)
    (bm1 wm2 : (⟨2, ![1, 128]⟩ : Shape).Idx → EReal) (bm2 : (⟨2, ![1, 1]⟩ : Shape).Idx → EReal) :
    (⟨2, ![P, 1]⟩ : Shape).Idx → EReal := fun j =>
  (∑ q : Fin 128, max (hidden zu zv ea wu wv we bm1 (j 0) q) 0 * wm2 (ix2 0 q)) + bm2 (ix2 0 0)

end Cert.Sage

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.LibPlainDot.lean ====
/-
  A rows-by-contraction times contraction-by-columns product, read by coordinates.

  The dimension numbers of such a product contract the left operand's second axis with the right operand's first,
  keep the left operand's first axis and the right operand's second as the result's two axes, and batch nothing
  (`IsPlain`). At the result index `j` and the contraction position that `i : Fin n` names, the left operand is
  read at `(j 0, i)` and the right operand at `(i, j 1)` (`lhsIdx_eq`, `rhsIdx_eq`), so any sum over the contraction's
  positions of a function of the two operand indices is the sum over `i : Fin n` of that function at those two pairs
  (`sum_eq`). At the ideal values this reads a product into a zero accumulator, and a host product, as the textbook
  `∑ i, l (j 0, i) * r (i, j 1)` (`matmul_zero_apply`, `dotGeneral_apply`).
-/
import proofs.«142372_j18348100288600_1_alg».proof.Proof.LibContraction

noncomputable section

open scoped BigOperators

namespace Cert.Lib.PlainDot

open Idealize.ShloMosaic Idealize.ShloMosaic.ValueIdx Cert.Lib.Contraction

variable {a n b : Nat} (d : DotDims ⟨2, ![a, n]⟩ ⟨2, ![n, b]⟩ ⟨2, ![a, b]⟩)

/-- The dimension numbers of a rows × contraction by contraction × columns product: axis 1 of the left operand is
    contracted with axis 0 of the right one, axis 0 of the left and axis 1 of the right are free, nothing is batched. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- At position `i` the left operand is read at row `j 0`, column `i`. -/
theorem lhsIdx_eq (h : IsPlain d) (j : (⟨2, ![a, b]⟩ : Shape).Idx) (i : Fin n) :
    d.lhsIdx j ((contrFin d h.lc n rfl).symm i) = ix2 (j 0) i := by
  funext ax
  match ax with
  | ⟨0, _⟩ => exact Fin.ext (lhs_free d h.lb h.ln j _ Nat.zero_lt_two)
  | ⟨1, _⟩ => exact Fin.ext (lhs_contracted d h.lc n rfl j i)

/-- At position `i` the right operand is read at row `i`, column `j 1`. -/
theorem rhsIdx_eq (h : IsPlain d) (j : (⟨2, ![a, b]⟩ : Shape).Idx) (i : Fin n) :
    d.rhsIdx j ((contrFin d h.lc n rfl).symm i) = ix2 i (j 1) := by
  funext ax
  match ax with
  | ⟨0, _⟩ => exact Fin.ext (rhs_contracted d h.lc h.rc n rfl j i)
  | ⟨1, _⟩ => exact Fin.ext (rhs_free d h.lb h.rb h.ln h.rn j _ Nat.one_lt_two)

/-- A sum over the contraction's positions of a function of the two operand indices is the sum over the contracted
    extent of that function at `(j 0, i)` and `(i, j 1)`. -/
theorem sum_eq {M : Type*} [AddCommMonoid M] (h : IsPlain d) (j : (⟨2, ![a, b]⟩ : Shape).Idx)
    (f : (⟨2, ![a, n]⟩ : Shape).Idx → (⟨2, ![n, b]⟩ : Shape).Idx → M) :
    ∑ k : d.contr.Idx, f (d.lhsIdx j k) (d.rhsIdx j k) = ∑ i : Fin n, f (ix2 (j 0) i) (ix2 i (j 1)) := by
  rw [sum_contr d h.lc n rfl (fun k => f (d.lhsIdx j k) (d.rhsIdx j k))]
  exact Finset.sum_congr rfl fun i _ => congrArg₂ f (lhsIdx_eq h j i) (rhsIdx_eq h j i)

/-- At the ideal values, a product into a zero accumulator is the sum of the products of row `j 0` of the left
    operand with column `j 1` of the right one. -/
theorem matmul_zero_apply {φ₁ φ₂ : FTy} (h : IsPlain d) (prec : Option ContractPrecision)
    (l : FVec Ideal ⟨2, ![a, n]⟩ φ₁) (r : FVec Ideal ⟨2, ![n, b]⟩ φ₂) (j : (⟨2, ![a, b]⟩ : Shape).Idx) :
    FloatOps.matmul d prec l r (constant ⟨2, ![a, b]⟩ .f32 0x00000000#32) j
      = ∑ i : Fin n, l (ix2 (j 0) i) * r (ix2 i (j 1)) :=
  (Ideal.matmul_constant_zero_apply d prec l r j).trans (sum_eq h j fun x y => l x * r y)

/-- At the ideal values, a host product is the same sum. -/
theorem dotGeneral_apply {φ₁ φ₂ : FTy} (h : IsPlain d) (prec : Option ContractPrecision) (sched : HostSchedule)
    (l : FVec Ideal ⟨2, ![a, n]⟩ φ₁) (r : FVec Ideal ⟨2, ![n, b]⟩ φ₂) (j : (⟨2, ![a, b]⟩ : Shape).Idx) :
    FloatOps.dotGeneral d prec sched l r j = ∑ i : Fin n, l (ix2 (j 0) i) * r (ix2 i (j 1)) :=
  (Ideal.dotGeneral_apply d prec sched l r j).trans (sum_eq h j fun x y => l x * r y)

end Cert.Lib.PlainDot

end
-- ==== Proof.SpecLaws.lean ====
/-
  Rows of a layer and of the decoder depend only on the same rows of the row-indexed operands.

  `layer x mean wl wr b` at row `r` reads row `r` of `x` and of `mean` and nothing else of them; so if a block of
  rows `xb`, `meanb` agrees at its row `p` with row `r` of the whole arrays, and the matrices and the bias row agree
  where they are read, the block's layer at `(p, q)` is the whole arrays' layer at `(r, q)` (`layer_row`). The same
  for the decoder and its three row-indexed operands (`decode_row`).
-/
import proofs.«142372_j18348100288600_1_alg».proof.Proof.Spec

noncomputable section

open scoped BigOperators

namespace Cert.Sage

open Idealize.ShloMosaic Idealize.ShloMosaic.ValueIdx

theorem layer_row {N B : Nat}
    (x mean : (⟨2, ![N, 128]⟩ : Shape).Idx → EReal) (wl wr : (⟨2, ![128, 128]⟩ : Shape).Idx → EReal)
    (b : (⟨2, ![1, 128]⟩ : Shape).Idx → EReal)
    (xb meanb : (⟨2, ![B, 128]⟩ : Shape).Idx → EReal) (wl' wr' : (⟨2, ![128, 128]⟩ : Shape).Idx → EReal)
    (b' : (⟨2, ![1, 128]⟩ : Shape).Idx → EReal) (r : Fin N) (p : Fin B) (q : Fin 128)
    (hx : ∀ k : Fin 128, xb (ix2 p k) = x (ix2 r k)) (hm : ∀ k : Fin 128, meanb (ix2 p k) = mean (ix2 r k))
    (hwl : ∀ k : Fin 128, wl' (ix2 k q) = wl (ix2 k q)) (hwr : ∀ k : Fin 128, wr' (ix2 k q) = wr (ix2 k q))
    (hb : b' (ix2 0 q) = b (ix2 0 q)) :
    layer xb meanb wl' wr' b' (ix2 p q) = layer x mean wl wr b (ix2 r q) := by
  unfold layer
  show max ((∑ k : Fin 128, meanb (ix2 p k) * wl' (ix2 k q) + ∑ k : Fin 128, xb (ix2 p k) * wr' (ix2 k q)) + b' (ix2 0 q)) 0
    = max ((∑ k : Fin 128, mean (ix2 r k) * wl (ix2 k q) + ∑ k : Fin 128, x (ix2 r k) * wr (ix2 k q)) + b (ix2 0 q)) 0
  simp only [hx, hm, hwl, hwr, hb]

theorem hidden_row {P B : Nat}
    (zu zv ea : (⟨2, ![P, 128]⟩ : Shape).Idx → EReal) (wu wv we : (⟨2, ![128, 128]⟩ : Shape).Idx → EReal)
    (bm1 : (⟨2, ![1, 128]⟩ : Shape).Idx → EReal)
    (zub zvb eab : (⟨2, ![B, 128]⟩ : Shape).Idx → EReal) (wu' wv' we' : (⟨2, ![128, 128]⟩ : Shape).Idx → EReal)
    (bm1' : (⟨2, ![1, 128]⟩ : Shape).Idx → EReal) (r : Fin P) (p : Fin B) (q : Fin 128)
    (hu : ∀ k : Fin 128, zub (ix2 p k) = zu (ix2 r k)) (hv : ∀ k : Fin 128, zvb (ix2 p k) = zv (ix2 r k))
    (he : ∀ k : Fin 128, eab (ix2 p k) = ea (ix2 r k))
    (hwu : ∀ k : Fin 128, wu' (ix2 k q) = wu (ix2 k q)) (hwv : ∀ k : Fin 128, wv' (ix2 k q) = wv (ix2 k q))
    (hwe : ∀ k : Fin 128, we' (ix2 k q) = we (ix2 k q)) (hb : bm1' (ix2 0 q) = bm1 (ix2 0 q)) :
    hidden zub zvb eab wu' wv' we' bm1' p q = hidden zu zv ea wu wv we bm1 r q := by
  unfold hidden
  simp only [hu, hv, he, hwu, hwv, hwe, hb]

theorem decode_row {P B : Nat}
    (zu zv ea : (⟨2, ![P, 128]⟩ : Shape).Idx → EReal) (wu wv we : (⟨2, ![128, 128]⟩ : Shape).Idx → EReal)
    (bm1 wm2 : (⟨2, ![1, 128]⟩ : Shape).Idx → EReal) (bm2 : (⟨2, ![1, 1]⟩ : Shape).Idx → EReal)
    (zub zvb eab : (⟨2, ![B, 128]⟩ : Shape).Idx → EReal) (wu' wv' we' : (⟨2, ![128, 128]⟩ : Shape).Idx → EReal)
    (bm1' wm2' : (⟨2, ![1, 128]⟩ : Shape).Idx → EReal) (bm2' : (⟨2, ![1, 1]⟩ : Shape).Idx → EReal)
    (r : Fin P) (p : Fin B)
    (hu : ∀ k : Fin 128, zub (ix2 p k) = zu (ix2 r k)) (hv : ∀ k : Fin 128, zvb (ix2 p k) = zv (ix2 r k))
    (he : ∀ k : Fin 128, eab (ix2 p k) = ea (ix2 r k))
    (hwu : ∀ k q : Fin 128, wu' (ix2 k q) = wu (ix2 k q)) (hwv : ∀ k q : Fin 128, wv' (ix2 k q) = wv (ix2 k q))
    (hwe : ∀ k q : Fin 128, we' (ix2 k q) = we (ix2 k q)) (hb : ∀ q : Fin 128, bm1' (ix2 0 q) = bm1 (ix2 0 q))
    (hw2 : ∀ q : Fin 128, wm2' (ix2 0 q) = wm2 (ix2 0 q)) (hb2 : bm2' (ix2 0 0) = bm2 (ix2 0 0)) :
    decode zub zvb eab wu' wv' we' bm1' wm2' bm2' (ix2 p (0 : Fin 1)) = decode zu zv ea wu wv we bm1 wm2 bm2 (ix2 r (0 : Fin 1)) := by
  unfold decode
  show (∑ q : Fin 128, max (hidden zub zvb eab wu' wv' we' bm1' p q) 0 * wm2' (ix2 0 q)) + bm2' (ix2 0 0)
    = (∑ q : Fin 128, max (hidden zu zv ea wu wv we bm1 r q) 0 * wm2 (ix2 0 q)) + bm2 (ix2 0 0)
  rw [hb2]
  refine congrArg (· + bm2 (ix2 0 0)) (Finset.sum_congr rfl fun q _ => ?_)
  rw [hw2 q, hidden_row zu zv ea wu wv we bm1 zub zvb eab wu' wv' we' bm1' r p q hu hv he (fun k => hwu k q)
    (fun k => hwv k q) (fun k => hwe k q) (hb q)]

/-- The layer reads its matrices and its bias row only at the entries its formula names: other matrices and another
    bias row that agree there give the same layer. -/
theorem layer_congr {N : Nat} (x mean : (⟨2, ![N, 128]⟩ : Shape).Idx → EReal)
    (wl wr : (⟨2, ![128, 128]⟩ : Shape).Idx → EReal) (b : (⟨2, ![1, 128]⟩ : Shape).Idx → EReal)
    (wl' wr' : (⟨2, ![128, 128]⟩ : Shape).Idx → EReal) (b' : (⟨2, ![1, 128]⟩ : Shape).Idx → EReal)
    (hwl : ∀ k q : Fin 128, wl' (ix2 k q) = wl (ix2 k q)) (hwr : ∀ k q : Fin 128, wr' (ix2 k q) = wr (ix2 k q))
    (hb : ∀ q : Fin 128, b' (ix2 0 q) = b (ix2 0 q)) :
    layer x mean wl' wr' b' = layer x mean wl wr b := by
  funext j
  obtain ⟨p, q, rfl⟩ : ∃ (p : Fin N) (q : Fin 128), j = ix2 p q := ⟨j 0, j 1, eq_ix2 j⟩
  exact layer_row x mean wl wr b x mean wl' wr' b' p p q (fun _ => rfl) (fun _ => rfl) (fun k => hwl k q)
    (fun k => hwr k q) (hb q)

/-- The same for the decoder's three matrices, two rows and one cell. -/
theorem decode_congr {P : Nat} (zu zv ea : (⟨2, ![P, 128]⟩ : Shape).Idx → EReal)
    (wu wv we : (⟨2, ![128, 128]⟩ : Shape).Idx → EReal) (bm1 wm2 : (⟨2, ![1, 128]⟩ : Shape).Idx → EReal)
    (bm2 : (⟨2, ![1, 1]⟩ : Shape).Idx → EReal)
    (wu' wv' we' : (⟨2, ![128, 128]⟩ : Shape).Idx → EReal) (bm1' wm2' : (⟨2, ![1, 128]⟩ : Shape).Idx → EReal)
    (bm2' : (⟨2, ![1, 1]⟩ : Shape).Idx → EReal)
    (hwu : ∀ k q : Fin 128, wu' (ix2 k q) = wu (ix2 k q)) (hwv : ∀ k q : Fin 128, wv' (ix2 k q) = wv (ix2 k q))
    (hwe : ∀ k q : Fin 128, we' (ix2 k q) = we (ix2 k q)) (hb : ∀ q : Fin 128, bm1' (ix2 0 q) = bm1 (ix2 0 q))
    (hw2 : ∀ q : Fin 128, wm2' (ix2 0 q) = wm2 (ix2 0 q)) (hb2 : bm2' (ix2 0 0) = bm2 (ix2 0 0)) :
    decode zu zv ea wu' wv' we' bm1' wm2' bm2' = decode zu zv ea wu wv we bm1 wm2 bm2 := by
  funext j
  obtain ⟨p, q, rfl⟩ : ∃ (p : Fin P) (q : Fin 1), j = ix2 p q := ⟨j 0, j 1, eq_ix2 j⟩
  obtain rfl : q = 0 := Subsingleton.elim _ _
  exact decode_row zu zv ea wu wv we bm1 wm2 bm2 zu zv ea wu' wv' we' bm1' wm2' bm2' p p (fun _ => rfl) (fun _ => rfl)
    (fun _ => rfl) hwu hwv hwe hb hw2 hb2

end Cert.Sage

end
-- ==== Proof.Layer1.lean ====
/-
  The first layer's kernel: what its output array holds after the run, as a function of the arrays it finds.

  The kernel runs over ten grid points. At point `t` it reads rows `5000 t .. 5000 t + 4999` of the node features and
  of their aggregated means, the two whole weight matrices and the bias row, and writes the same rows of its output.
  What it stores at row `p`, channel `q` of the block is the layer of the blocks there (`pay_apply`: the two products
  into zero accumulators are plain sums over the 128 input channels, the changes of float format are the identity on
  the extended reals). A row of the layer depends only on the same row of the features and of the means
  (`Cert.Sage.layer_row`), so the block written at `t` is block `t` of the layer of the whole arrays (`flushed_eq`);
  the ten blocks tile the 50000 rows (`cover`), so the output array ends holding the layer of the whole arrays
  (`value`).
-/
import proofs.«142372_j18348100288600_1_alg».proof.Proof.Gen.KernelIdeal.Frame
import proofs.«142372_j18348100288600_1_alg».proof.Proof.Spec
import proofs.«142372_j18348100288600_1_alg».proof.Proof.LibPlainDot
import proofs.«142372_j18348100288600_1_alg».proof.Proof.SpecLaws
import Idealize.ShloMosaic.Lib.Pipeline.Value
import Idealize.ShloMosaic.Lib.ValueLayout

set_option maxRecDepth 16384

noncomputable section

open scoped BigOperators

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)

/-- The body's two products contract the left operand's columns with the right operand's rows. -/
theorem plain : Cert.Lib.PlainDot.IsPlain dot_S5000x128_S128x128_S5000x128_1_0_0_1_n_n :=
  ⟨rfl, rfl, rfl, rfl, rfl, rfl⟩

/-- The body's one stored value at row `p` and channel `q` of its block: the rectified sum of the aggregated rows
    against the first matrix, the node's own rows against the second, and the bias row. -/
theorem pay_apply (x0 x1 : FVec Ideal S5000x128 .f32) (x2 x3 : FVec Ideal S128x128 .bf16) (x4 : FVec Ideal S1x128 .f32)
    (p : Fin 5000) (q : Fin 128) :
    k0_pay1 (F := Ideal) x0 x1 x2 x3 x4 (ix2 p q) = Cert.Sage.layer (N := 5000) x0 x1 x2 x3 x4 (ix2 p q) := by
  unfold k0_pay1 Cert.Sage.layer
  simp only [maximumf_apply, addf_apply, broadcast_apply]
  show _ = max ((∑ k : Fin 128, x1 (ix2 p k) * x2 (ix2 k q) + ∑ k : Fin 128, x0 (ix2 p k) * x3 (ix2 k q)) + x4 (ix2 0 q)) 0
  simp only [matmul]
  rw [Cert.Lib.PlainDot.matmul_zero_apply plain, Cert.Lib.PlainDot.matmul_zero_apply plain]
  simp only [truncf_apply, shapeCast_self]
  rw [broadcastTo_1b_ab_apply]
  rw [show (FloatOps.ofBits (F := Ideal) .f32 0#32) = (0 : EReal) from Ideal.ofBits_zero_f32]

variable (V : (c : Dev nD) → (b : Ref sig .tc) → Buf (Elt Ideal) ((c : Thread nD τ).loc b))

/-- The arrays the region finds, each at its literal type: the node features, their aggregated means, the two weight
    matrices and the bias row. -/
abbrev xArr (c : Dev nD) : FVec Ideal S50000x128 .f32 := V c main_arg0
abbrev meanArr (c : Dev nD) : FVec Ideal S50000x128 .f32 := V c main_v24
abbrev wlArr (c : Dev nD) : FVec Ideal S128x128 .bf16 := V c main_v4
abbrev wrArr (c : Dev nD) : FVec Ideal S128x128 .bf16 := V c main_v5
abbrev bArr (c : Dev nD) : FVec Ideal S1x128 .f32 := V c main_v6

/-- The layer of those arrays, over all 50000 nodes. -/
abbrev whole (c : Dev nD) : FVec Ideal S50000x128 .f32 :=
  Cert.Sage.layer (N := 50000) (xArr V c) (meanArr V c) (wlArr V c) (wrArr V c) (bArr V c)

theorem hz : (![0, 0] : Fin 2 → Nat) = fun _ => 0 := funext fun a => by fin_cases a <;> rfl

/-- Where each window's block sits at grid point `t`: the two row-indexed inputs and the output at row block `t`,
    the matrices and the bias row always at their one block. Decided over the ten points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the node-feature block at point `t` is row `5000 t + p` of the array. -/
theorem read_x (c : Dev nD) (t : Fin cfg0.N) (p : Fin 5000) (k : Fin 128) (r : Fin 50000)
    (hr : r.val = t.val * 5000 + p.val) : iblk0 V c 0 t (ix2 p k) = xArr V c (ix2 r k) := by
  obtain ⟨e0, e1, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row `p` of the aggregated-means block at point `t` is row `5000 t + p` of the array. -/
theorem read_mean (c : Dev nD) (t : Fin cfg0.N) (p : Fin 5000) (k : Fin 128) (r : Fin 50000)
    (hr : r.val = t.val * 5000 + p.val) : iblk0 V c 1 t (ix2 p k) = meanArr V c (ix2 r k) := by
  obtain ⟨-, -, e0, e1, -⟩ := idx_facts t
  show V c main_v24 (((cfg0.win 1).blk t).view.emb (ix2 p k)) = V c main_v24 (ix2 r k)
  refine congrArg (V c main_v24) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The first matrix's block is the matrix, at every point. -/
theorem read_wl (c : Dev nD) (t : Fin cfg0.N) (k q : Fin 128) : iblk0 V c 2 t (ix2 k q) = wlArr V c (ix2 k q) := by
  obtain ⟨-, -, -, -, e0, e1, -⟩ := idx_facts t
  show V c main_v4 (((cfg0.win 2).blk t).view.emb (ix2 k q)) = V c main_v4 (ix2 k q)
  refine congrArg (V c main_v4) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The second matrix's block is the matrix, at every point. -/
theorem read_wr (c : Dev nD) (t : Fin cfg0.N) (k q : Fin 128) : iblk0 V c 3 t (ix2 k q) = wrArr V c (ix2 k q) := by
  obtain ⟨-, -, -, -, -, -, e0, e1, -⟩ := idx_facts t
  show V c main_v5 (((cfg0.win 3).blk t).view.emb (ix2 k q)) = V c main_v5 (ix2 k q)
  refine congrArg (V c main_v5) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias row's block is the row, at every point. -/
theorem read_b (c : Dev nD) (t : Fin cfg0.N) (q : Fin 128) : iblk0 V c 4 t (ix2 (0 : Fin 1) q) = bArr V c (ix2 (0 : Fin 1) q) := by
  obtain ⟨-, -, -, -, -, -, -, -, e0, e1, -⟩ := idx_facts t
  show V c main_v6 (((cfg0.win 4).blk t).view.emb (ix2 (0 : Fin 1) q)) = V c main_v6 (ix2 (0 : Fin 1) q)
  refine congrArg (V c main_v6) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

theorem flushed_eq (c : Dev nD) (t : Fin cfg0.N) :
    (dat0 (F := Ideal) V c).flushed 5 t = ((cfg0.win 5).blk t).view.read (Elt Ideal) (whole V c) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have ht : t.val < 10 := t.isLt
  obtain ⟨-, -, -, -, -, -, -, -, -, -, e0, e1⟩ := idx_facts t
  let r : Fin 50000 := ⟨t.val * 5000 + p.val, by have := p.isLt; omega⟩
  have hemb : ((cfg0.win 5).blk t).view.emb (ix2 p q) = ix2 r q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 p q)
    = whole V c (((cfg0.win 5).blk t).view.emb (ix2 p q))
  rw [hemb]
  refine (pay_apply (iblk0 V c 0 t) (iblk0 V c 1 t) (iblk0 V c 2 t) (iblk0 V c 3 t) (iblk0 V c 4 t) p q).trans ?_
  exact Cert.Sage.layer_row (xArr V c) (meanArr V c) (wlArr V c) (wrArr V c) (bArr V c)
    (iblk0 V c 0 t) (iblk0 V c 1 t) (iblk0 V c 2 t) (iblk0 V c 3 t) (iblk0 V c 4 t) r p q
    (fun k => read_x V c t p k r rfl) (fun k => read_mean V c t p k r rfl)
    (fun k => read_wl V c t k q) (fun k => read_wr V c t k q) (read_b V c t q)

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v25).slice (win0_5.rect t)).set ↔ _
  rw [View.set_slice_whole, Rect.mem_set_unit]
  exact Iff.rfl

/-- The ten blocks of 5000 rows tile the 50000 rows: row `i 0` is in the block of point `(i 0) / 5000`, and every
    point writes its block back. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hlt : (i 0).val / 5000 < 10 := by omega
  obtain ⟨-, -, -, -, -, -, -, -, -, -, e0, e1⟩ := idx_facts ⟨(i 0).val / 5000, hlt⟩
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    rw [e1]; omega

/-- After the run the first layer's output array holds the layer of the arrays the region found. -/
theorem value (c : Dev nD) : (dat0 (F := Ideal) V c).arrAt 5 cfg0.N = whole V c :=
  (dat0 (F := Ideal) V c).arrAt_eq_of_cover 5 (whole V c) (fun t _ => flushed_eq V c t) (cover)

end Cert.KernelIdeal.Layer1

end
-- ==== Proof.Layer2.lean ====
/-
  The second layer's kernel: what its output array holds after the run, as a function of the arrays it finds.

  The kernel runs over ten grid points. At point `t` it reads rows `5000 t .. 5000 t + 4999` of the node features and
  of their aggregated means, the two whole weight matrices and the bias row, and writes the same rows of its output.
  What it stores at row `p`, channel `q` of the block is the layer of the blocks there (`pay_apply`: the two products
  into zero accumulators are plain sums over the 128 input channels, the changes of float format are the identity on
  the extended reals). A row of the layer depends only on the same row of the features and of the means
  (`Cert.Sage.layer_row`), so the block written at `t` is block `t` of the layer of the whole arrays (`flushed_eq`);
  the ten blocks tile the 50000 rows (`cover`), so the output array ends holding the layer of the whole arrays
  (`value`).
-/
import proofs.«142372_j18348100288600_1_alg».proof.Proof.Gen.KernelIdeal.Frame
import proofs.«142372_j18348100288600_1_alg».proof.Proof.Spec
import proofs.«142372_j18348100288600_1_alg».proof.Proof.LibPlainDot
import proofs.«142372_j18348100288600_1_alg».proof.Proof.SpecLaws
import Idealize.ShloMosaic.Lib.Pipeline.Value
import Idealize.ShloMosaic.Lib.ValueLayout

set_option maxRecDepth 16384

noncomputable section

open scoped BigOperators

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)

/-- The body's two products contract the left operand's columns with the right operand's rows. -/
theorem plain : Cert.Lib.PlainDot.IsPlain dot_S5000x128_S128x128_S5000x128_1_0_0_1_n_n :=
  ⟨rfl, rfl, rfl, rfl, rfl, rfl⟩

/-- The body's one stored value at row `p` and channel `q` of its block: the rectified sum of the aggregated rows
    against the first matrix, the node's own rows against the second, and the bias row. -/
theorem pay_apply (x0 x1 : FVec Ideal S5000x128 .f32) (x2 x3 : FVec Ideal S128x128 .bf16) (x4 : FVec Ideal S1x128 .f32)
    (p : Fin 5000) (q : Fin 128) :
    k1_pay1 (F := Ideal) x0 x1 x2 x3 x4 (ix2 p q) = Cert.Sage.layer (N := 5000) x0 x1 x2 x3 x4 (ix2 p q) := by
  unfold k1_pay1 Cert.Sage.layer
  simp only [maximumf_apply, addf_apply, broadcast_apply]
  show _ = max ((∑ k : Fin 128, x1 (ix2 p k) * x2 (ix2 k q) + ∑ k : Fin 128, x0 (ix2 p k) * x3 (ix2 k q)) + x4 (ix2 0 q)) 0
  simp only [matmul]
  rw [Cert.Lib.PlainDot.matmul_zero_apply plain, Cert.Lib.PlainDot.matmul_zero_apply plain]
  simp only [truncf_apply, shapeCast_self]
  rw [broadcastTo_1b_ab_apply]
  rw [show (FloatOps.ofBits (F := Ideal) .f32 0#32) = (0 : EReal) from Ideal.ofBits_zero_f32]

variable (V : (c : Dev nD) → (b : Ref sig .tc) → Buf (Elt Ideal) ((c : Thread nD τ).loc b))

/-- The arrays the region finds, each at its literal type: the node features, their aggregated means, the two weight
    matrices and the bias row. -/
abbrev xArr (c : Dev nD) : FVec Ideal S50000x128 .f32 := V c main_v25
abbrev meanArr (c : Dev nD) : FVec Ideal S50000x128 .f32 := V c main_v46
abbrev wlArr (c : Dev nD) : FVec Ideal S128x128 .bf16 := V c main_v26
abbrev wrArr (c : Dev nD) : FVec Ideal S128x128 .bf16 := V c main_v27
abbrev bArr (c : Dev nD) : FVec Ideal S1x128 .f32 := V c main_v28

/-- The layer of those arrays, over all 50000 nodes. -/
abbrev whole (c : Dev nD) : FVec Ideal S50000x128 .f32 :=
  Cert.Sage.layer (N := 50000) (xArr V c) (meanArr V c) (wlArr V c) (wrArr V c) (bArr V c)

theorem hz : (![0, 0] : Fin 2 → Nat) = fun _ => 0 := funext fun a => by fin_cases a <;> rfl

/-- Where each window's block sits at grid point `t`: the two row-indexed inputs and the output at row block `t`,
    the matrices and the bias row always at their one block. Decided over the ten points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the node-feature block at point `t` is row `5000 t + p` of the array. -/
theorem read_x (c : Dev nD) (t : Fin cfg1.N) (p : Fin 5000) (k : Fin 128) (r : Fin 50000)
    (hr : r.val = t.val * 5000 + p.val) : iblk1 V c 0 t (ix2 p k) = xArr V c (ix2 r k) := by
  obtain ⟨e0, e1, -⟩ := idx_facts t
  show V c main_v25 (((cfg1.win 0).blk t).view.emb (ix2 p k)) = V c main_v25 (ix2 r k)
  refine congrArg (V c main_v25) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Row `p` of the aggregated-means block at point `t` is row `5000 t + p` of the array. -/
theorem read_mean (c : Dev nD) (t : Fin cfg1.N) (p : Fin 5000) (k : Fin 128) (r : Fin 50000)
    (hr : r.val = t.val * 5000 + p.val) : iblk1 V c 1 t (ix2 p k) = meanArr V c (ix2 r k) := by
  obtain ⟨-, -, e0, e1, -⟩ := idx_facts t
  show V c main_v46 (((cfg1.win 1).blk t).view.emb (ix2 p k)) = V c main_v46 (ix2 r k)
  refine congrArg (V c main_v46) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The first matrix's block is the matrix, at every point. -/
theorem read_wl (c : Dev nD) (t : Fin cfg1.N) (k q : Fin 128) : iblk1 V c 2 t (ix2 k q) = wlArr V c (ix2 k q) := by
  obtain ⟨-, -, -, -, e0, e1, -⟩ := idx_facts t
  show V c main_v26 (((cfg1.win 2).blk t).view.emb (ix2 k q)) = V c main_v26 (ix2 k q)
  refine congrArg (V c main_v26) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The second matrix's block is the matrix, at every point. -/
theorem read_wr (c : Dev nD) (t : Fin cfg1.N) (k q : Fin 128) : iblk1 V c 3 t (ix2 k q) = wrArr V c (ix2 k q) := by
  obtain ⟨-, -, -, -, -, -, e0, e1, -⟩ := idx_facts t
  show V c main_v27 (((cfg1.win 3).blk t).view.emb (ix2 k q)) = V c main_v27 (ix2 k q)
  refine congrArg (V c main_v27) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias row's block is the row, at every point. -/
theorem read_b (c : Dev nD) (t : Fin cfg1.N) (q : Fin 128) : iblk1 V c 4 t (ix2 (0 : Fin 1) q) = bArr V c (ix2 (0 : Fin 1) q) := by
  obtain ⟨-, -, -, -, -, -, -, -, e0, e1, -⟩ := idx_facts t
  show V c main_v28 (((cfg1.win 4).blk t).view.emb (ix2 (0 : Fin 1) q)) = V c main_v28 (ix2 (0 : Fin 1) q)
  refine congrArg (V c main_v28) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

theorem flushed_eq (c : Dev nD) (t : Fin cfg1.N) :
    (dat1 (F := Ideal) V c).flushed 5 t = ((cfg1.win 5).blk t).view.read (Elt Ideal) (whole V c) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have ht : t.val < 10 := t.isLt
  obtain ⟨-, -, -, -, -, -, -, -, -, -, e0, e1⟩ := idx_facts t
  let r : Fin 50000 := ⟨t.val * 5000 + p.val, by have := p.isLt; omega⟩
  have hemb : ((cfg1.win 5).blk t).view.emb (ix2 p q) = ix2 r q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (F := Ideal) (iblk1 V c 0 t) (iblk1 V c 1 t) (iblk1 V c 2 t) (iblk1 V c 3 t) (iblk1 V c 4 t) (ix2 p q)
    = whole V c (((cfg1.win 5).blk t).view.emb (ix2 p q))
  rw [hemb]
  refine (pay_apply (iblk1 V c 0 t) (iblk1 V c 1 t) (iblk1 V c 2 t) (iblk1 V c 3 t) (iblk1 V c 4 t) p q).trans ?_
  exact Cert.Sage.layer_row (xArr V c) (meanArr V c) (wlArr V c) (wrArr V c) (bArr V c)
    (iblk1 V c 0 t) (iblk1 V c 1 t) (iblk1 V c 2 t) (iblk1 V c 3 t) (iblk1 V c 4 t) r p q
    (fun k => read_x V c t p k r rfl) (fun k => read_mean V c t p k r rfl)
    (fun k => read_wl V c t k q) (fun k => read_wr V c t k q) (read_b V c t q)

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v47).slice (win1_5.rect t)).set ↔ _
  rw [View.set_slice_whole, Rect.mem_set_unit]
  exact Iff.rfl

/-- The ten blocks of 5000 rows tile the 50000 rows: row `i 0` is in the block of point `(i 0) / 5000`, and every
    point writes its block back. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hlt : (i 0).val / 5000 < 10 := by omega
  obtain ⟨-, -, -, -, -, -, -, -, -, -, e0, e1⟩ := idx_facts ⟨(i 0).val / 5000, hlt⟩
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hlt⟩ (1 : Fin 2) * 128 ≤ (i 1).val
      ∧ (i 1).val < win1_5.index ⟨(i 0).val / 5000, hlt⟩ (1 : Fin 2) * 128 + 128
    rw [e1]; omega

/-- After the run the second layer's output array holds the layer of the arrays the region found. -/
theorem value (c : Dev nD) : (dat1 (F := Ideal) V c).arrAt 5 cfg1.N = whole V c :=
  (dat1 (F := Ideal) V c).arrAt_eq_of_cover 5 (whole V c) (fun t _ => flushed_eq V c t) (cover)

end Cert.KernelIdeal.Layer2

end
-- ==== Proof.Decoder.lean ====
/-
  The link decoder's kernel: what its output array holds after the run, as a function of the arrays it finds.
-/
import proofs.«142372_j18348100288600_1_alg».proof.Proof.Gen.KernelIdeal.Frame
import proofs.«142372_j18348100288600_1_alg».proof.Proof.Spec
import proofs.«142372_j18348100288600_1_alg».proof.Proof.LibPlainDot
import proofs.«142372_j18348100288600_1_alg».proof.Proof.SpecLaws
import Idealize.ShloMosaic.Lib.Pipeline.Value
import Idealize.ShloMosaic.Lib.ValueLayout

set_option maxRecDepth 16384

noncomputable section

open scoped BigOperators

namespace Cert.KernelIdeal.Decoder

open Cert.KernelIdeal Cert.KernelIdeal.Gen
open Idealize.ShloMosaic Idealize.ShloMosaic.TcCoe Idealize.ShloMosaic.ValueIdx Idealize.SL.Sem
open Idealize.ShloMosaic.Pipeline (Dat)

/-- The body's three products contract the left operand's columns with the right operand's rows. -/
theorem plain : Cert.Lib.PlainDot.IsPlain dot_S5000x128_S128x128_S5000x128_1_0_0_1_n_n :=
  ⟨rfl, rfl, rfl, rfl, rfl, rfl⟩

/-- A sum over the lanes of a [5000,128] block, read at row `p`: the sum over the 128 columns of that row. -/
theorem rowSum_apply (src : FVec Ideal S5000x128 .f32) (hφ : FKind.Formats FTy.f32)
    (hacc : (0x00000000#32 : BitVec 32) = FKind.add.neutral .f32 hφ) (p : Fin 5000) :
    multiReduction (F := Ideal) .add [1] S5000 src 0x00000000#32 reduces_S5000x128_S5000 hφ hacc (ix1 p)
      = ∑ k : Fin 128, src (ix2 p k) := by
  rw [Ideal.multiReduction_add_single]
  show ∑ k : Fin 128, src (reduces_S5000x128_S5000.lift (ix1 p) k) = _
  refine Finset.sum_congr rfl fun k _ => congrArg src ?_
  funext a
  match a with
  | ⟨0, _⟩ => rfl
  | ⟨1, _⟩ => rfl

/-- The rectified hidden layer against the second matrix's row, at row `p` and channel `q` of the block: the three
    products into zero, added left to right, plus the bias row, against zero, times the row's entry. -/
theorem lane_apply (x0 x1 x2 : FVec Ideal S5000x128 .f32) (x3 x4 x5 : FVec Ideal S128x128 .bf16) (x6 x7 : FVec Ideal S1x128 .f32)
    (p : Fin 5000) (q : Fin 128) :
    mulf (F := Ideal)
        (maximumf
          (addf
            (addf
              (addf
                (matmul dot_S5000x128_S128x128_S5000x128_1_0_0_1_n_n none
                  (truncf FTy.bf16 (shapeCast S5000x128 x0 shapeCasts_S5000x128_S5000x128) bitsLt_bf16_f32)
                  (shapeCast S128x128 x3 shapeCasts_S128x128_S128x128) (constant S5000x128 FTy.f32 0x00000000#32))
                (matmul dot_S5000x128_S128x128_S5000x128_1_0_0_1_n_n none
                  (truncf FTy.bf16 (shapeCast S5000x128 x1 shapeCasts_S5000x128_S5000x128) bitsLt_bf16_f32)
                  (shapeCast S128x128 x4 shapeCasts_S128x128_S128x128) (constant S5000x128 FTy.f32 0x00000000#32)))
              (matmul dot_S5000x128_S128x128_S5000x128_1_0_0_1_n_n none (truncf FTy.bf16 x2 bitsLt_bf16_f32)
                (shapeCast S128x128 x5 shapeCasts_S128x128_S128x128) (constant S5000x128 FTy.f32 0x00000000#32)))
            (broadcastTo S5000x128 (shapeCast S1x128 x6 shapeCasts_S1x128_S1x128) broadcasts_S1x128_S5000x128))
          (broadcast S5000x128 (FloatOps.ofBits FTy.f32 0x00000000#32)))
        (broadcastTo S5000x128 (shapeCast S1x128 x7 shapeCasts_S1x128_S1x128) broadcasts_S1x128_S5000x128) (ix2 p q)
      = max (Cert.Sage.hidden (P := 5000) x0 x1 x2 x3 x4 x5 x6 p q) 0 * x7 (ix2 0 q) := by
  unfold Cert.Sage.hidden
  simp only [mulf_apply, maximumf_apply, addf_apply, broadcast_apply]
  simp only [matmul]
  rw [Cert.Lib.PlainDot.matmul_zero_apply plain, Cert.Lib.PlainDot.matmul_zero_apply plain,
    Cert.Lib.PlainDot.matmul_zero_apply plain]
  simp only [truncf_apply, shapeCast_self]
  rw [broadcastTo_1b_ab_apply, broadcastTo_1b_ab_apply]
  rw [show (FloatOps.ofBits (F := Ideal) .f32 0#32) = (0 : EReal) from Ideal.ofBits_zero_f32]

/-- The body's one stored value at row `p` of its block: the decoder of the loaded blocks at that row. -/
theorem pay_apply (x0 x1 x2 : FVec Ideal S5000x128 .f32) (x3 x4 x5 : FVec Ideal S128x128 .bf16) (x6 x7 : FVec Ideal S1x128 .f32)
    (x8 : FVec Ideal S1x1 .f32) (p : Fin 5000) :
    k2_pay1 (F := Ideal) x0 x1 x2 x3 x4 x5 x6 x7 x8 (ix2 p (0 : Fin 1))
      = Cert.Sage.decode (P := 5000) x0 x1 x2 x3 x4 x5 x6 x7 x8 (ix2 p 0) := by
  unfold k2_pay1 Cert.Sage.decode
  simp only [addf_apply]
  show _ = (∑ q : Fin 128, max (Cert.Sage.hidden (P := 5000) x0 x1 x2 x3 x4 x5 x6 p q) 0 * x7 (ix2 0 q)) + x8 (ix2 0 0)
  congr 1
  · rw [shapeCast_apply _ shapeCasts_S5000_S5000x1 (ix2 p (0 : Fin 1)) (ix1 p) (by
      rw [Shape.rowMajor_val_two, Shape.rowMajor_val_one]
      show p.val = p.val * 1 + 0
      omega)]
    refine (rowSum_apply _ _ _ p).trans ?_
    exact Finset.sum_congr rfl fun q _ => lane_apply x0 x1 x2 x3 x4 x5 x6 x7 p q
  · rw [shapeCast_self]
    exact broadcastTo_1b_ab_apply x8 broadcasts_S1x1_S5000x1 p (0 : Fin 1)

variable (V : (c : Dev nD) → (b : Ref sig .tc) → Buf (Elt Ideal) ((c : Thread nD τ).loc b))

/-- The arrays the region finds, each at its literal type: the two endpoint embeddings and the attributes of every
    pair, the three square blocks of the first decoder matrix, its bias row, the second matrix as a row, its bias. -/
abbrev zuArr (c : Dev nD) : FVec Ideal S500000x128 .f32 := V c main_v58
abbrev zvArr (c : Dev nD) : FVec Ideal S500000x128 .f32 := V c main_v65
abbrev eaArr (c : Dev nD) : FVec Ideal S500000x128 .f32 := V c main_arg3
abbrev wuArr (c : Dev nD) : FVec Ideal S128x128 .bf16 := V c main_v67
abbrev wvArr (c : Dev nD) : FVec Ideal S128x128 .bf16 := V c main_v69
abbrev weArr (c : Dev nD) : FVec Ideal S128x128 .bf16 := V c main_v71
abbrev bm1Arr (c : Dev nD) : FVec Ideal S1x128 .f32 := V c main_v72
abbrev wm2Arr (c : Dev nD) : FVec Ideal S1x128 .f32 := V c main_v73
abbrev bm2Arr (c : Dev nD) : FVec Ideal S1x1 .f32 := V c main_v74

/-- The decoder of those arrays, over all 500000 pairs. -/
abbrev whole (c : Dev nD) : FVec Ideal S500000x1 .f32 :=
  Cert.Sage.decode (P := 500000) (zuArr V c) (zvArr V c) (eaArr V c) (wuArr V c) (wvArr V c) (weArr V c) (bm1Arr V c) (wm2Arr V c) (bm2Arr V c)

theorem hz : (![0, 0] : Fin 2 → Nat) = fun _ => 0 := funext fun a => by fin_cases a <;> rfl

/-- The printed index maps, decided once over the grid: the three row-indexed inputs and the output sit at row block
    `t`, column block 0; the matrices, the two rows and the cell always at block (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0) :=
  (by decide +kernel : ∀ t : Fin grid2.N, _)

/-! ## Each loaded block read where the point's rectangle says

A block's coordinate in its array is the block index times the block's extent plus the coordinate inside the block. -/

/-- Row `p` of point `t`'s block of the first endpoint's embeddings is row `5000 t + p` of the array. -/
theorem zu_read (c : Dev nD) (t : Fin cfg2.N) (p : Fin 5000) (k : Fin 128) (h : t.val * 5000 + p.val < 500000) :
    iblk2 V c 0 t (ix2 p k) = zuArr V c (ix2 ⟨t.val * 5000 + p.val, h⟩ k) := by
  show V c main_v58 (((cfg2.win 0).blk t).view.emb (ix2 p k)) = V c main_v58 (ix2 ⟨t.val * 5000 + p.val, h⟩ k)
  refine congrArg (V c main_v58) ?_
  obtain ⟨⟨e0, e1⟩, -⟩ := idx_facts t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

/-- The same for the second endpoint's embeddings. -/
theorem zv_read (c : Dev nD) (t : Fin cfg2.N) (p : Fin 5000) (k : Fin 128) (h : t.val * 5000 + p.val < 500000) :
    iblk2 V c 1 t (ix2 p k) = zvArr V c (ix2 ⟨t.val * 5000 + p.val, h⟩ k) := by
  show V c main_v65 (((cfg2.win 1).blk t).view.emb (ix2 p k)) = V c main_v65 (ix2 ⟨t.val * 5000 + p.val, h⟩ k)
  refine congrArg (V c main_v65) ?_
  obtain ⟨-, ⟨e0, e1⟩, -⟩ := idx_facts t
  funext a; apply Fin.ext
  match a with
  | ⟨0, _⟩ => show win2_1.index t (0 : Fin 2) * 5000 + 1 * p.val = t.val * 5000 + p.val; omega
  | ⟨1, _⟩ => show win2_1.index t (1 : Fin 2) * 128 + 1 * k.val = k.val; omega

/-- The same for the pairs' attributes. -/
theorem ea_read (c : Dev nD) (t : Fin cfg2.N) (p : Fin 5000) (k : Fin 128) (h : t.val * 5000 + p.val < 500000) :
    iblk2 V c 2 t (ix2 p k) = eaArr V c (ix2 ⟨t.val * 5000 + p.val, h⟩ k) := by
  show V c main_arg3 (((cfg2.win 2).blk t).view.emb (ix2 p k)) = V c main_arg3 (ix2 ⟨t.val * 5000 + p.val, h⟩ k)
  refine congrArg (V c main_arg3) ?_
  obtain ⟨-, -, ⟨e0, e1⟩, -⟩ := idx_facts t
  funext a; apply Fin.ext
  match a with
  | ⟨0, _⟩ => show win2_2.index t (0 : Fin 2) * 5000 + 1 * p.val = t.val * 5000 + p.val; omega
  | ⟨1, _⟩ => show win2_2.index t (1 : Fin 2) * 128 + 1 * k.val = k.val; omega

/-- The three matrices are loaded whole at every point. -/
theorem wu_read (c : Dev nD) (t : Fin cfg2.N) (k q : Fin 128) : iblk2 V c 3 t (ix2 k q) = wuArr V c (ix2 k q) := by
  show V c main_v67 (((cfg2.win 3).blk t).view.emb (ix2 k q)) = V c main_v67 (ix2 k q)
  refine congrArg (V c main_v67) ?_
  obtain ⟨-, -, -, ⟨e0, e1⟩, -⟩ := idx_facts t
  funext a; apply Fin.ext
  match a with
  | ⟨0, _⟩ => show win2_3.index t (0 : Fin 2) * 128 + 1 * k.val = k.val; omega
  | ⟨1, _⟩ => show win2_3.index t (1 : Fin 2) * 128 + 1 * q.val = q.val; omega

theorem wv_read (c : Dev nD) (t : Fin cfg2.N) (k q : Fin 128) : iblk2 V c 4 t (ix2 k q) = wvArr V c (ix2 k q) := by
  show V c main_v69 (((cfg2.win 4).blk t).view.emb (ix2 k q)) = V c main_v69 (ix2 k q)
  refine congrArg (V c main_v69) ?_
  obtain ⟨-, -, -, -, ⟨e0, e1⟩, -⟩ := idx_facts t
  funext a; apply Fin.ext
  match a with
  | ⟨0, _⟩ => show win2_4.index t (0 : Fin 2) * 128 + 1 * k.val = k.val; omega
  | ⟨1, _⟩ => show win2_4.index t (1 : Fin 2) * 128 + 1 * q.val = q.val; omega

theorem we_read (c : Dev nD) (t : Fin cfg2.N) (k q : Fin 128) : iblk2 V c 5 t (ix2 k q) = weArr V c (ix2 k q) := by
  show V c main_v71 (((cfg2.win 5).blk t).view.emb (ix2 k q)) = V c main_v71 (ix2 k q)
  refine congrArg (V c main_v71) ?_
  obtain ⟨-, -, -, -, -, ⟨e0, e1⟩, -⟩ := idx_facts t
  funext a; apply Fin.ext
  match a with
  | ⟨0, _⟩ => show win2_5.index t (0 : Fin 2) * 128 + 1 * k.val = k.val; omega
  | ⟨1, _⟩ => show win2_5.index t (1 : Fin 2) * 128 + 1 * q.val = q.val; omega

/-- So are the two rows and the cell. -/
theorem bm1_read (c : Dev nD) (t : Fin cfg2.N) (q : Fin 128) : iblk2 V c 6 t (ix2 0 q) = bm1Arr V c (ix2 0 q) := by
  show V c main_v72 (((cfg2.win 6).blk t).view.emb (ix2 0 q)) = V c main_v72 (ix2 0 q)
  refine congrArg (V c main_v72) ?_
  obtain ⟨-, -, -, -, -, -, ⟨e0, e1⟩, -⟩ := idx_facts t
  funext a; apply Fin.ext
  match a with
  | ⟨0, _⟩ => show win2_6.index t (0 : Fin 2) * 1 + 1 * 0 = 0; omega
  | ⟨1, _⟩ => show win2_6.index t (1 : Fin 2) * 128 + 1 * q.val = q.val; omega

theorem wm2_read (c : Dev nD) (t : Fin cfg2.N) (q : Fin 128) : iblk2 V c 7 t (ix2 0 q) = wm2Arr V c (ix2 0 q) := by
  show V c main_v73 (((cfg2.win 7).blk t).view.emb (ix2 0 q)) = V c main_v73 (ix2 0 q)
  refine congrArg (V c main_v73) ?_
  obtain ⟨-, -, -, -, -, -, -, ⟨e0, e1⟩, -⟩ := idx_facts t
  funext a; apply Fin.ext
  match a with
  | ⟨0, _⟩ => show win2_7.index t (0 : Fin 2) * 1 + 1 * 0 = 0; omega
  | ⟨1, _⟩ => show win2_7.index t (1 : Fin 2) * 128 + 1 * q.val = q.val; omega

theorem bm2_read (c : Dev nD) (t : Fin cfg2.N) : iblk2 V c 8 t (ix2 0 0) = bm2Arr V c (ix2 0 0) := by
  show V c main_v74 (((cfg2.win 8).blk t).view.emb (ix2 0 0)) = V c main_v74 (ix2 0 0)
  refine congrArg (V c main_v74) ?_
  obtain ⟨-, -, -, -, -, -, -, -, ⟨e0, e1⟩, -⟩ := idx_facts t
  funext a; apply Fin.ext
  match a with
  | ⟨0, _⟩ => show win2_8.index t (0 : Fin 2) * 1 + 1 * 0 = 0; omega
  | ⟨1, _⟩ => show win2_8.index t (1 : Fin 2) * 1 + 1 * 0 = 0; omega

/-- A point of the grid is one of 100, and a row of its block one of 5000: the row's place in the array is in range. -/
theorem row_lt (t : Fin cfg2.N) (p : Fin 5000) : t.val * 5000 + p.val < 500000 := by
  have ht : t.val < 100 := t.isLt
  have hp : p.val < 5000 := p.isLt
  omega

/-- WHAT POINT `t` WRITES BACK is block `t` of the decoder of the arrays the region finds. -/
theorem flushed_eq (c : Dev nD) (t : Fin cfg2.N) :
    (dat2 (F := Ideal) V c).flushed 9 t = ((cfg2.win 9).blk t).view.read (Elt Ideal) (whole V c) := by
  show (cfg2.win 9).cut (grid2.coords t) ((dat2 (F := Ideal) V c).after 9 t) = _
  rw [after2_9]
  unfold out2_9
  rw [View.canon_unit_zero hz]
  simp only [View.ld_unit_zero (S := S5000x128) hz, View.ld_unit_zero (S := S128x128) hz, View.ld_unit_zero (S := S1x128) hz,
    View.ld_unit_zero (S := S1x1) hz]
  funext y
  obtain ⟨p, q, rfl⟩ : ∃ (p : Fin 5000) (q : Fin 1), y = ix2 p q := ⟨y 0, y 1, eq_ix2 y⟩
  obtain rfl : q = 0 := Subsingleton.elim _ _
  show k2_pay1 (F := Ideal) (iblk2 V c 0 t) (iblk2 V c 1 t) (iblk2 V c 2 t) (iblk2 V c 3 t) (iblk2 V c 4 t) (iblk2 V c 5 t)
      (iblk2 V c 6 t) (iblk2 V c 7 t) (iblk2 V c 8 t) (ix2 p (0 : Fin 1))
    = whole V c (((cfg2.win 9).blk t).view.emb (ix2 p (0 : Fin 1)))
  have hemb : ((cfg2.win 9).blk t).view.emb (ix2 p (0 : Fin 1)) = ix2 (⟨t.val * 5000 + p.val, row_lt t p⟩ : Fin 500000) (0 : Fin 1) := by
    obtain ⟨-, -, -, -, -, -, -, -, -, e0, e1⟩ := idx_facts t
    funext a; apply Fin.ext
    match a with
    | ⟨0, _⟩ => show win2_9.index t (0 : Fin 2) * 5000 + 1 * p.val = t.val * 5000 + p.val; omega
    | ⟨1, _⟩ => show win2_9.index t (1 : Fin 2) * 1 + 1 * 0 = 0; omega
  rw [hemb]
  refine (pay_apply (iblk2 V c 0 t) (iblk2 V c 1 t) (iblk2 V c 2 t) (iblk2 V c 3 t) (iblk2 V c 4 t) (iblk2 V c 5 t)
    (iblk2 V c 6 t) (iblk2 V c 7 t) (iblk2 V c 8 t) p).trans ?_
  exact Cert.Sage.decode_row (zuArr V c) (zvArr V c) (eaArr V c) (wuArr V c) (wvArr V c) (weArr V c) (bm1Arr V c) (wm2Arr V c)
    (bm2Arr V c) (iblk2 V c 0 t) (iblk2 V c 1 t) (iblk2 V c 2 t) (iblk2 V c 3 t) (iblk2 V c 4 t) (iblk2 V c 5 t)
    (iblk2 V c 6 t) (iblk2 V c 7 t) (iblk2 V c 8 t) ⟨t.val * 5000 + p.val, row_lt t p⟩ p
    (fun k => zu_read V c t p k _) (fun k => zv_read V c t p k _) (fun k => ea_read V c t p k _)
    (fun k q => wu_read V c t k q) (fun k q => wv_read V c t k q) (fun k q => we_read V c t k q)
    (fun q => bm1_read V c t q) (fun q => wm2_read V c t q) (bm2_read V c t)

/-- An index of the array is in point `t`'s block iff each coordinate is in the block's range on its axis. -/
theorem mem_blk (t : Fin cfg2.N) (i : S500000x1.Idx) :
    i ∈ ((cfg2.win 9).blk t).view.set ↔ ∀ a : Fin 2, win2_9.index t a * S5000x1.size a ≤ (i a).val ∧ (i a).val < win2_9.index t a * S5000x1.size a + S5000x1.size a := by
  show i ∈ ((View.whole main_v75).slice (win2_9.rect t)).set ↔ _
  rw [View.set_slice_whole, Rect.mem_set_unit]
  exact Iff.rfl

/-- Every index of the output array is in some point's block, and every point writes its block back: row `r` is in
    the block of point `r / 5000`. -/
theorem cover (i : S500000x1.Idx) :
    ∃ t : Fin cfg2.N, (cfg2.win 9).flush t = true ∧ i ∈ ((cfg2.win 9).blk t).view.set := by
  have hi0 : (i 0).val < 500000 := (i 0).isLt
  have hi1 : (i 1).val < 1 := (i 1).isLt
  have hlt : (i 0).val / 5000 < cfg2.N := by show (i 0).val / 5000 < 100; omega
  obtain ⟨-, -, -, -, -, -, -, -, -, e0, e1⟩ := idx_facts ⟨(i 0).val / 5000, hlt⟩
  have e0' : win2_9.index ⟨(i 0).val / 5000, hlt⟩ (0 : Fin 2) = (i 0).val / 5000 := e0
  refine ⟨⟨(i 0).val / 5000, hlt⟩, flush2_9 _, ?_⟩
  rw [mem_blk]
  intro a
  match a with
  | ⟨0, _⟩ =>
    show win2_9.index ⟨(i 0).val / 5000, hlt⟩ (0 : Fin 2) * 5000 ≤ (i 0).val
      ∧ (i 0).val < win2_9.index ⟨(i 0).val / 5000, hlt⟩ (0 : Fin 2) * 5000 + 5000
    omega
  | ⟨1, _⟩ =>
    show win2_9.index ⟨(i 0).val / 5000, hlt⟩ (1 : Fin 2) * 1 ≤ (i 1).val
      ∧ (i 1).val < win2_9.index ⟨(i 0).val / 5000, hlt⟩ (1 : Fin 2) * 1 + 1
    omega

/-- THE ARRAY after the run: the decoder of the arrays the region finds, at every pair. -/
theorem value (c : Dev nD) : (dat2 (F := Ideal) V c).arrAt 9 cfg2.N = whole V c :=
  (dat2 (F := Ideal) V c).arrAt_eq_of_cover 9 (whole V c) (fun t _ => flushed_eq V c t) cover

end Cert.KernelIdeal.Decoder

end
-- ==== Proof.Fold.lean ====
/-
  The contents of the idealized kernel's result array after its run, read back through @main.

  @main is four stretches of host operations around three kernels. The frame names the buffers' contents at each of
  the eight boundaries (`W0` … `W7`): a stretch applies its operations (`StableHlo.after`), a kernel leaves its arrays at
  what its write-backs fold to and everything else alone. Here each buffer a later item reads is read back, boundary by
  boundary, to the launch contents of the fourteen arguments:

  * the first stretch computes the edge list's two rows, the mean aggregation of the node features, and re-lays the
    first layer's weights; the first kernel then leaves the first layer `h` (`Layer1.value`);
  * the second stretch aggregates `h` over the same two rows and re-lays the second layer's weights; the second kernel
    leaves the second layer `z` (`Layer2.value`);
  * the third stretch gathers the rows of `z` at the pair list's two rows and re-lays the decoder's weights; the third
    kernel leaves the decoder's column (`Decoder.value`); the last stretch flattens it.

  The host chains are carried as the functions `meanAgg` and `gatherRows`: they are applied, never opened.
-/
import proofs.«142372_j18348100288600_1_alg».proof.Proof.Layer1
import proofs.«142372_j18348100288600_1_alg».proof.Proof.Layer2
import proofs.«142372_j18348100288600_1_alg».proof.Proof.Decoder
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-! ## The host chains between the kernels, each as one function -/

/-- The edge list's source row, as a flat vector of 1600000 node numbers. -/
def srcOf (ei : IVec S2x1600000 32) : IVec S1600000 32 :=
  shapeCast S1600000 (extractStridedSlice S1x1600000 ![0, 0] ei slices_S2x1600000_S1x1600000_0_0) shapeCasts_S1x1600000_S1600000

/-- The edge list's destination row. -/
def dstOf (ei : IVec S2x1600000 32) : IVec S1600000 32 :=
  shapeCast S1600000 (extractStridedSlice S1x1600000 ![1, 0] ei slices_S2x1600000_S1x1600000_1_0) shapeCasts_S1x1600000_S1600000

/-- Mean aggregation as @main's host operations compute it: the rows of `x` gathered at the sources (a negative
    number counted from the end), summed into their destinations, and divided by the destination's in-degree, at
    least one. -/
def meanAgg {F : FTy → Type} [FloatOps F] (x : FVec F S50000x128 .f32) (src dst : IVec S1600000 32) : FVec F S50000x128 .f32 :=
  Host.divf (Host.scatterAdd scatter_S50000x128_S1600000x1_S1600000x128_1_0_0_1 (broadcastInDim S50000x128 ![] bcast_S_S50000x128 (constant S_ .f32 0x00000000#32)) (broadcastInDim S1600000x1 ![0] bcast_S1600000_S1600000x1_0 dst) (Host.gather gather_S50000x128_S1600000x1_S1600000x128_1_0_n_n_0_1_1128 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 50000#32))) src)))) (broadcastInDim S50000x128 ![0, 1] bcast_S50000x1_S50000x128_0_1 (maximumf (Host.scatterAdd scatter_S50000x1_S1600000x1_S1600000x1_1_0_0_1 (broadcastInDim S50000x1 ![] bcast_S_S50000x1 (constant S_ .f32 0x00000000#32)) (broadcastInDim S1600000x1 ![0] bcast_S1600000_S1600000x1_0 dst) (broadcastInDim S1600000x1 ![] bcast_S_S1600000x1 (constant S_ .f32 0x3F800000#32))) (broadcastInDim S50000x1 ![] bcast_S_S50000x1 (constant S_ .f32 0x3F800000#32))))

/-- The pair list's first row and second row, as flat vectors of 500000 node numbers. -/
def rowOf0 (ep : IVec S2x500000 32) : IVec S500000 32 :=
  shapeCast S500000 (extractStridedSlice S1x500000 ![0, 0] ep slices_S2x500000_S1x500000_0_0) shapeCasts_S1x500000_S500000
def rowOf1 (ep : IVec S2x500000 32) : IVec S500000 32 :=
  shapeCast S500000 (extractStridedSlice S1x500000 ![1, 0] ep slices_S2x500000_S1x500000_1_0) shapeCasts_S1x500000_S500000

/-- The rows of `z` at the nodes `idx` names (a negative number counted from the end). -/
def gatherRows {F : FTy → Type} [FloatOps F] (z : FVec F S50000x128 .f32) (idx : IVec S500000 32) : FVec F S500000x128 .f32 :=
  Host.gather gather_S50000x128_S500000x1_S500000x128_1_0_n_n_0_1_1128 z (broadcastInDim S500000x1 ![0] bcast_S500000_S500000x1_0 (select (cmpi .slt idx (broadcastInDim S500000 ![] bcast_S_S500000 (constantI S_ 32 0#32))) (addi idx (broadcastInDim S500000 ![] bcast_S_S500000 (constantI S_ 32 50000#32))) idx))

/-- The decoder's first matrix cut into its three square blocks of rows, each re-read in the kernel's format. -/
def blockOf0 {F : FTy → Type} [FloatOps F] (w : FVec F S384x128 .f32) : FVec F S128x128 .bf16 := truncf .bf16 (extractStridedSlice S128x128 ![0, 0] w slices_S384x128_S128x128_0_0) bitsLt_bf16_f32
def blockOf1 {F : FTy → Type} [FloatOps F] (w : FVec F S384x128 .f32) : FVec F S128x128 .bf16 := truncf .bf16 (extractStridedSlice S128x128 ![128, 0] w slices_S384x128_S128x128_128_0) bitsLt_bf16_f32
def blockOf2 {F : FTy → Type} [FloatOps F] (w : FVec F S384x128 .f32) : FVec F S128x128 .bf16 := truncf .bf16 (extractStridedSlice S128x128 ![256, 0] w slices_S384x128_S128x128_256_0) bitsLt_bf16_f32

variable (m : (ℓ : Loc nD τ sig) → Buf (Elt Ideal) ℓ) (ρ : Dev nD → PrngReg) (c : Dev nD)

/-! ## The fourteen arguments as launched, each at its literal type -/

abbrev a0 : FVec Ideal S50000x128 .f32 := m ((c : Thread nD τ).loc main_arg0)
abbrev a1 : IVec S2x1600000 32 := m ((c : Thread nD τ).loc main_arg1)
abbrev a2 : IVec S2x500000 32 := m ((c : Thread nD τ).loc main_arg2)
abbrev a3 : FVec Ideal S500000x128 .f32 := m ((c : Thread nD τ).loc main_arg3)
abbrev a4 : FVec Ideal S128x128 .f32 := m ((c : Thread nD τ).loc main_arg4)
abbrev a5 : FVec Ideal S128x128 .f32 := m ((c : Thread nD τ).loc main_arg5)
abbrev a6 : FVec Ideal S128 .f32 := m ((c : Thread nD τ).loc main_arg6)
abbrev a7 : FVec Ideal S128x128 .f32 := m ((c : Thread nD τ).loc main_arg7)
abbrev a8 : FVec Ideal S128x128 .f32 := m ((c : Thread nD τ).loc main_arg8)
abbrev a9 : FVec Ideal S128 .f32 := m ((c : Thread nD τ).loc main_arg9)
abbrev a10 : FVec Ideal S384x128 .f32 := m ((c : Thread nD τ).loc main_arg10)
abbrev a11 : FVec Ideal S128 .f32 := m ((c : Thread nD τ).loc main_arg11)
abbrev a12 : FVec Ideal S128x1 .f32 := m ((c : Thread nD τ).loc main_arg12)
abbrev a13 : FVec Ideal S1 .f32 := m ((c : Thread nD τ).loc main_arg13)

/-- A stretch of host operations leaves a buffer it does not write as it found it. -/
macro "host_keeps" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The first stretch and the first kernel -/

theorem h0_arg0 : W1 m ρ c (Proc.devRef .tc main_arg0) = a0 m c := by
  show StableHlo.after hostOps0 (W0 m ρ c) (Proc.devRef .tc main_arg0) = W0 m ρ c (Proc.devRef .tc main_arg0)
  host_keeps hostOps0
theorem h0_v1 : W1 m ρ c (Proc.devRef .tc main_v1) = srcOf (a1 m c) := by
  dsimp only [W1, hostOps0]; after_results <;> rfl
theorem h0_v3 : W1 m ρ c (Proc.devRef .tc main_v3) = dstOf (a1 m c) := by
  dsimp only [W1, hostOps0]; after_results <;> rfl
theorem h0_v4 : W1 m ρ c (Proc.devRef .tc main_v4) = truncf .bf16 (a4 m c) bitsLt_bf16_f32 := by
  dsimp only [W1, hostOps0]; after_results <;> rfl
theorem h0_v5 : W1 m ρ c (Proc.devRef .tc main_v5) = truncf .bf16 (a5 m c) bitsLt_bf16_f32 := by
  dsimp only [W1, hostOps0]; after_results <;> rfl
theorem h0_v6 : W1 m ρ c (Proc.devRef .tc main_v6) = shapeCast S1x128 (a6 m c) shapeCasts_S128_S1x128 := by
  dsimp only [W1, hostOps0]; after_results <;> rfl
set_option maxHeartbeats 4000000 in
theorem h0_v24 : W1 m ρ c (Proc.devRef .tc main_v24) = meanAgg (a0 m c) (srcOf (a1 m c)) (dstOf (a1 m c)) := by
  dsimp only [W1, hostOps0]; after_results <;> rfl

/-- The first layer, of the arguments. -/
abbrev hK : FVec Ideal S50000x128 .f32 :=
  Cert.Sage.layer (N := 50000) (a0 m c) (meanAgg (a0 m c) (srcOf (a1 m c)) (dstOf (a1 m c)))
    (truncf .bf16 (a4 m c) bitsLt_bf16_f32) (truncf .bf16 (a5 m c) bitsLt_bf16_f32)
    (shapeCast S1x128 (a6 m c) shapeCasts_S128_S1x128)

theorem r0_v25 : W2 m ρ c (Proc.devRef .tc main_v25) = hK m c := by
  refine (W2_arr m ρ c 5).trans ((Layer1.value (V1 m ρ) c).trans ?_)
  show Cert.Sage.layer (N := 50000) (W1 m ρ c (Proc.devRef .tc main_arg0)) (W1 m ρ c (Proc.devRef .tc main_v24))
    (W1 m ρ c (Proc.devRef .tc main_v4)) (W1 m ρ c (Proc.devRef .tc main_v5)) (W1 m ρ c (Proc.devRef .tc main_v6)) = _
  rw [h0_arg0, h0_v24, h0_v4, h0_v5, h0_v6]

/-! ## The second stretch and the second kernel -/

theorem k1_v1 : W2 m ρ c (Proc.devRef .tc main_v1) = srcOf (a1 m c) :=
  (W2_of_ne m ρ c main_v1 (by decide)).trans (h0_v1 m ρ c)
theorem k1_v3 : W2 m ρ c (Proc.devRef .tc main_v3) = dstOf (a1 m c) :=
  (W2_of_ne m ρ c main_v3 (by decide)).trans (h0_v3 m ρ c)
theorem k1_arg7 : W2 m ρ c (Proc.devRef .tc main_arg7) = a7 m c := by
  refine (W2_of_ne m ρ c main_arg7 (by decide)).trans ?_
  show StableHlo.after hostOps0 (W0 m ρ c) (Proc.devRef .tc main_arg7) = W0 m ρ c (Proc.devRef .tc main_arg7)
  host_keeps hostOps0
theorem k1_arg8 : W2 m ρ c (Proc.devRef .tc main_arg8) = a8 m c := by
  refine (W2_of_ne m ρ c main_arg8 (by decide)).trans ?_
  show StableHlo.after hostOps0 (W0 m ρ c) (Proc.devRef .tc main_arg8) = W0 m ρ c (Proc.devRef .tc main_arg8)
  host_keeps hostOps0
theorem k1_arg9 : W2 m ρ c (Proc.devRef .tc main_arg9) = a9 m c := by
  refine (W2_of_ne m ρ c main_arg9 (by decide)).trans ?_
  show StableHlo.after hostOps0 (W0 m ρ c) (Proc.devRef .tc main_arg9) = W0 m ρ c (Proc.devRef .tc main_arg9)
  host_keeps hostOps0

theorem h1_v25 : W3 m ρ c (Proc.devRef .tc main_v25) = hK m c := by
  refine (show StableHlo.after hostOps1 (W2 m ρ c) (Proc.devRef .tc main_v25) = W2 m ρ c (Proc.devRef .tc main_v25) from by
    host_keeps hostOps1).trans (r0_v25 m ρ c)
theorem h1_v26 : W3 m ρ c (Proc.devRef .tc main_v26) = truncf .bf16 (a7 m c) bitsLt_bf16_f32 := by
  dsimp only [W3, hostOps1]; after_results <;> (rw [k1_arg7 m ρ c]) <;> rfl
theorem h1_v27 : W3 m ρ c (Proc.devRef .tc main_v27) = truncf .bf16 (a8 m c) bitsLt_bf16_f32 := by
  dsimp only [W3, hostOps1]; after_results <;> (rw [k1_arg8 m ρ c]) <;> rfl
theorem h1_v28 : W3 m ρ c (Proc.devRef .tc main_v28) = shapeCast S1x128 (a9 m c) shapeCasts_S128_S1x128 := by
  dsimp only [W3, hostOps1]; after_results <;> (rw [k1_arg9 m ρ c]) <;> rfl
set_option maxHeartbeats 4000000 in
theorem h1_v46 : W3 m ρ c (Proc.devRef .tc main_v46) = meanAgg (hK m c) (srcOf (a1 m c)) (dstOf (a1 m c)) := by
  dsimp only [W3, hostOps1]; after_results <;> (rw [r0_v25 m ρ c, k1_v1 m ρ c, k1_v3 m ρ c]) <;> rfl

/-- The second layer, of the arguments. -/
abbrev zK : FVec Ideal S50000x128 .f32 :=
  Cert.Sage.layer (N := 50000) (hK m c) (meanAgg (hK m c) (srcOf (a1 m c)) (dstOf (a1 m c)))
    (truncf .bf16 (a7 m c) bitsLt_bf16_f32) (truncf .bf16 (a8 m c) bitsLt_bf16_f32)
    (shapeCast S1x128 (a9 m c) shapeCasts_S128_S1x128)

theorem r1_v47 : W4 m ρ c (Proc.devRef .tc main_v47) = zK m c := by
  refine (W4_arr m ρ c 5).trans ((Layer2.value (V3 m ρ) c).trans ?_)
  show Cert.Sage.layer (N := 50000) (W3 m ρ c (Proc.devRef .tc main_v25)) (W3 m ρ c (Proc.devRef .tc main_v46))
    (W3 m ρ c (Proc.devRef .tc main_v26)) (W3 m ρ c (Proc.devRef .tc main_v27)) (W3 m ρ c (Proc.devRef .tc main_v28)) = _
  rw [h1_v25, h1_v46, h1_v26, h1_v27, h1_v28]

/-! ## The third stretch and the third kernel -/

theorem k2_arg2 : W4 m ρ c (Proc.devRef .tc main_arg2) = a2 m c := by
  refine (W4_of_ne m ρ c main_arg2 (by decide)).trans ?_
  refine (show StableHlo.after hostOps1 (W2 m ρ c) (Proc.devRef .tc main_arg2) = W2 m ρ c (Proc.devRef .tc main_arg2) from by
    host_keeps hostOps1).trans ?_
  refine (W2_of_ne m ρ c main_arg2 (by decide)).trans ?_
  show StableHlo.after hostOps0 (W0 m ρ c) (Proc.devRef .tc main_arg2) = W0 m ρ c (Proc.devRef .tc main_arg2)
  host_keeps hostOps0
theorem k2_arg3 : W4 m ρ c (Proc.devRef .tc main_arg3) = a3 m c := by
  refine (W4_of_ne m ρ c main_arg3 (by decide)).trans ?_
  refine (show StableHlo.after hostOps1 (W2 m ρ c) (Proc.devRef .tc main_arg3) = W2 m ρ c (Proc.devRef .tc main_arg3) from by
    host_keeps hostOps1).trans ?_
  refine (W2_of_ne m ρ c main_arg3 (by decide)).trans ?_
  show StableHlo.after hostOps0 (W0 m ρ c) (Proc.devRef .tc main_arg3) = W0 m ρ c (Proc.devRef .tc main_arg3)
  host_keeps hostOps0
theorem k2_arg10 : W4 m ρ c (Proc.devRef .tc main_arg10) = a10 m c := by
  refine (W4_of_ne m ρ c main_arg10 (by decide)).trans ?_
  refine (show StableHlo.after hostOps1 (W2 m ρ c) (Proc.devRef .tc main_arg10) = W2 m ρ c (Proc.devRef .tc main_arg10) from by
    host_keeps hostOps1).trans ?_
  refine (W2_of_ne m ρ c main_arg10 (by decide)).trans ?_
  show StableHlo.after hostOps0 (W0 m ρ c) (Proc.devRef .tc main_arg10) = W0 m ρ c (Proc.devRef .tc main_arg10)
  host_keeps hostOps0
theorem k2_arg11 : W4 m ρ c (Proc.devRef .tc main_arg11) = a11 m c := by
  refine (W4_of_ne m ρ c main_arg11 (by decide)).trans ?_
  refine (show StableHlo.after hostOps1 (W2 m ρ c) (Proc.devRef .tc main_arg11) = W2 m ρ c (Proc.devRef .tc main_arg11) from by
    host_keeps hostOps1).trans ?_
  refine (W2_of_ne m ρ c main_arg11 (by decide)).trans ?_
  show StableHlo.after hostOps0 (W0 m ρ c) (Proc.devRef .tc main_arg11) = W0 m ρ c (Proc.devRef .tc main_arg11)
  host_keeps hostOps0
theorem k2_arg12 : W4 m ρ c (Proc.devRef .tc main_arg12) = a12 m c := by
  refine (W4_of_ne m ρ c main_arg12 (by decide)).trans ?_
  refine (show StableHlo.after hostOps1 (W2 m ρ c) (Proc.devRef .tc main_arg12) = W2 m ρ c (Proc.devRef .tc main_arg12) from by
    host_keeps hostOps1).trans ?_
  refine (W2_of_ne m ρ c main_arg12 (by decide)).trans ?_
  show StableHlo.after hostOps0 (W0 m ρ c) (Proc.devRef .tc main_arg12) = W0 m ρ c (Proc.devRef .tc main_arg12)
  host_keeps hostOps0
theorem k2_arg13 : W4 m ρ c (Proc.devRef .tc main_arg13) = a13 m c := by
  refine (W4_of_ne m ρ c main_arg13 (by decide)).trans ?_
  refine (show StableHlo.after hostOps1 (W2 m ρ c) (Proc.devRef .tc main_arg13) = W2 m ρ c (Proc.devRef .tc main_arg13) from by
    host_keeps hostOps1).trans ?_
  refine (W2_of_ne m ρ c main_arg13 (by decide)).trans ?_
  show StableHlo.after hostOps0 (W0 m ρ c) (Proc.devRef .tc main_arg13) = W0 m ρ c (Proc.devRef .tc main_arg13)
  host_keeps hostOps0

theorem h2_arg3 : W5 m ρ c (Proc.devRef .tc main_arg3) = a3 m c := by
  refine (show StableHlo.after hostOps2 (W4 m ρ c) (Proc.devRef .tc main_arg3) = W4 m ρ c (Proc.devRef .tc main_arg3) from by
    host_keeps hostOps2).trans (k2_arg3 m ρ c)
set_option maxHeartbeats 4000000 in
theorem h2_v58 : W5 m ρ c (Proc.devRef .tc main_v58) = gatherRows (zK m c) (rowOf0 (a2 m c)) := by
  dsimp only [W5, hostOps2]; after_results <;> (rw [r1_v47 m ρ c, k2_arg2 m ρ c]) <;> rfl
set_option maxHeartbeats 4000000 in
theorem h2_v65 : W5 m ρ c (Proc.devRef .tc main_v65) = gatherRows (zK m c) (rowOf1 (a2 m c)) := by
  dsimp only [W5, hostOps2]; after_results <;> (rw [r1_v47 m ρ c, k2_arg2 m ρ c]) <;> rfl
theorem h2_v67 : W5 m ρ c (Proc.devRef .tc main_v67) = blockOf0 (a10 m c) := by
  dsimp only [W5, hostOps2]; after_results <;> (rw [k2_arg10 m ρ c]) <;> rfl
theorem h2_v69 : W5 m ρ c (Proc.devRef .tc main_v69) = blockOf1 (a10 m c) := by
  dsimp only [W5, hostOps2]; after_results <;> (rw [k2_arg10 m ρ c]) <;> rfl
theorem h2_v71 : W5 m ρ c (Proc.devRef .tc main_v71) = blockOf2 (a10 m c) := by
  dsimp only [W5, hostOps2]; after_results <;> (rw [k2_arg10 m ρ c]) <;> rfl
theorem h2_v72 : W5 m ρ c (Proc.devRef .tc main_v72) = shapeCast S1x128 (a11 m c) shapeCasts_S128_S1x128 := by
  dsimp only [W5, hostOps2]; after_results <;> (rw [k2_arg11 m ρ c]) <;> rfl
theorem h2_v73 : W5 m ρ c (Proc.devRef .tc main_v73) = shapeCast S1x128 (a12 m c) shapeCasts_S128x1_S1x128 := by
  dsimp only [W5, hostOps2]; after_results <;> (rw [k2_arg12 m ρ c]) <;> rfl
theorem h2_v74 : W5 m ρ c (Proc.devRef .tc main_v74) = shapeCast S1x1 (a13 m c) shapeCasts_S1_S1x1 := by
  dsimp only [W5, hostOps2]; after_results <;> (rw [k2_arg13 m ρ c]) <;> rfl

/-- The decoder's column, of the arguments. -/
abbrev outK : FVec Ideal S500000x1 .f32 :=
  Cert.Sage.decode (P := 500000) (gatherRows (zK m c) (rowOf0 (a2 m c))) (gatherRows (zK m c) (rowOf1 (a2 m c))) (a3 m c)
    (blockOf0 (a10 m c)) (blockOf1 (a10 m c)) (blockOf2 (a10 m c))
    (shapeCast S1x128 (a11 m c) shapeCasts_S128_S1x128) (shapeCast S1x128 (a12 m c) shapeCasts_S128x1_S1x128)
    (shapeCast S1x1 (a13 m c) shapeCasts_S1_S1x1)

theorem r2_v75 : W6 m ρ c (Proc.devRef .tc main_v75) = outK m c := by
  refine (W6_arr m ρ c 9).trans ((Decoder.value (V5 m ρ) c).trans ?_)
  show Cert.Sage.decode (P := 500000) (W5 m ρ c (Proc.devRef .tc main_v58)) (W5 m ρ c (Proc.devRef .tc main_v65))
    (W5 m ρ c (Proc.devRef .tc main_arg3)) (W5 m ρ c (Proc.devRef .tc main_v67)) (W5 m ρ c (Proc.devRef .tc main_v69))
    (W5 m ρ c (Proc.devRef .tc main_v71)) (W5 m ρ c (Proc.devRef .tc main_v72)) (W5 m ρ c (Proc.devRef .tc main_v73))
    (W5 m ρ c (Proc.devRef .tc main_v74)) = _
  rw [h2_v58, h2_v65, h2_arg3, h2_v67, h2_v69, h2_v71, h2_v72, h2_v73, h2_v74]

/-! ## The last stretch: the result -/

/-- After the run the result array holds the decoder's column of the arguments, flattened. -/
theorem result : W7 m ρ c (Proc.devRef .tc main_v76) = shapeCast S500000 (outK m c) shapeCasts_S500000x1_S500000 := by
  dsimp only [W7, hostOps3]; after_results <;> (rw [r2_v75 m ρ c]) <;> rfl

end Cert.KernelIdeal.Fold

end
-- ==== Proof.Views.lean ====
/-
  Four re-laid readings of the weight and bias arrays, as functions over the extended reals.

  The layers read a bias of 128 channels as the one row of a `[1, 128]` array (`biasRow`); the decoder reads its first
  matrix `[384, 128]` as three square blocks of 128 rows each (`rowsFrom`), its second matrix `[128, 1]` as a row
  (`colAsRow`), and its last bias `[1]` as a `[1, 1]` cell (`cell`).
-/
import Idealize.ShloMosaic.PureOps.Ideal
import Idealize.ShloMosaic.Lib.ValueIdx

noncomputable section

namespace Cert.Sage

open Idealize.ShloMosaic Idealize.ShloMosaic.ValueIdx

/-- A vector of 128 channels as one row: row `0`, channel `r 1`. -/
def biasRow (b : (⟨1, ![128]⟩ : Shape).Idx → EReal) : (⟨2, ![1, 128]⟩ : Shape).Idx → EReal := fun r => b (ix1 (r 1))

/-- The 128 rows of a `[384, 128]` matrix that start at row `o`. -/
def rowsFrom (o : Nat) (ho : o + 128 ≤ 384) (w : (⟨2, ![384, 128]⟩ : Shape).Idx → EReal) :
    (⟨2, ![128, 128]⟩ : Shape).Idx → EReal := fun r =>
  w (ix2 (⟨o + (r 0).val, Nat.lt_of_lt_of_le (Nat.add_lt_add_left (idx2_lt0 r) o) ho⟩ : Fin 384) (r 1))

/-- A `[128, 1]` column as a row: row `0`, channel `r 1` reads the column at `r 1`. -/
def colAsRow (w : (⟨2, ![128, 1]⟩ : Shape).Idx → EReal) : (⟨2, ![1, 128]⟩ : Shape).Idx → EReal := fun r =>
  w (ix2 (r 1) (0 : Fin 1))

/-- A one-element vector as a `[1, 1]` cell. -/
def cell (b : (⟨1, ![1]⟩ : Shape).Idx → EReal) : (⟨2, ![1, 1]⟩ : Shape).Idx → EReal := fun _ => b (ix1 (0 : Fin 1))

end Cert.Sage

end
-- ==== Proof.RefValue.lean ====
/-
  The reference's value: what its run leaves in its result array, as a function of its argument arrays.

  The reference is a two-layer encoder with mean aggregation followed by a link decoder. Read stage by stage at an
  index, each layer's output is the rectified sum of two products over 128 channels and a bias, and the decoder's
  output is a lane sum of a rectified hidden layer. The reference adds a layer's bias before its second product and
  the specification after it; on the extended reals addition is commutative and associative, so the two agree. The
  decoder's one product over the 384 columns of a three-piece concatenation is the sum of three products over 128,
  one per piece, because a finite sum over 384 positions is the sum over its three runs of 128.
-/
import proofs.«142372_j18348100288600_1_alg».proof.Proof.Gen.ReferenceIdeal.Run
import proofs.«142372_j18348100288600_1_alg».proof.Proof.Gen.ReferenceIdeal.Read
import proofs.«142372_j18348100288600_1_alg».proof.Proof.Spec
import proofs.«142372_j18348100288600_1_alg».proof.Proof.Views
import Mathlib.Algebra.BigOperators.Fin

noncomputable section

open scoped BigOperators

namespace Cert.ReferenceIdeal.RefValue

open Cert.ReferenceIdeal Cert.ReferenceIdeal.Read Idealize.ShloMosaic Idealize.ShloMosaic.ValueIdx

/-! ## Two laws: of finite sums, and of addition -/

/-- A sum over 384 positions is the sum over its three runs of 128. -/
theorem sum_three {M : Type*} [AddCommMonoid M] (f : Fin 384 → M) :
    ∑ c : Fin 384, f c
      = (∑ k : Fin 128, f ⟨k.val, Nat.lt_of_lt_of_le k.isLt (by decide)⟩
          + ∑ k : Fin 128, f ⟨128 + k.val, Nat.lt_of_lt_of_le (Nat.add_lt_add_left k.isLt 128) (by decide)⟩)
        + ∑ k : Fin 128, f ⟨256 + k.val, Nat.lt_of_lt_of_le (Nat.add_lt_add_left k.isLt 256) (by decide)⟩ := by
  have h1 := Fin.sum_univ_add (M := M) (a := 256) (b := 128) f
  have h2 := Fin.sum_univ_add (M := M) (a := 128) (b := 128) (fun i : Fin (128 + 128) => f (Fin.castAdd 128 i))
  rw [h1, h2]
  rfl

/-- A layer at one element: adding the bias before the second product or after it gives the same extended real,
    because addition there is commutative and associative. -/
theorem layer_point (a b c : EReal) : max ((a + c) + b) 0 = max ((a + b) + c) 0 := by
  rw [add_right_comm]

/-! ## The concatenation read at an index

Column c of the joined array is column c of the first piece, column c − 128 of the second or column c − 256 of the
third, according to the run of 128 that holds c; the row is the same. -/

theorem cat0 (y0 y1 y2 : FVec Ideal S500000x128 .f32)
    (h : Shape.Concatenates ([(⟨S500000x128, y0⟩ : (s : Shape) × (s.Idx → EReal)), ⟨S500000x128, y1⟩, ⟨S500000x128, y2⟩].map (·.1)) S500000x384 1)
    (p : Fin 500000) (k : Fin 128) (c : Fin 384) (hc : c.val = k.val) :
    concatenate S500000x384 1 [⟨S500000x128, y0⟩, ⟨S500000x128, y1⟩, ⟨S500000x128, y2⟩] h (ix2 p c) = y0 (ix2 p k) := by
  refine concatenate_apply_piece (1 : Fin S500000x384.rank) _ h (ix2 p c) 0 (by show 0 < 3; decide) S500000x128 y0 rfl rfl 0 rfl (ix2 p k) ?_ ?_
  · intro b hb
    match b with
    | ⟨0, _⟩ => rfl
    | ⟨1, _⟩ => exact absurd rfl hb
  · show 0 + k.val = c.val
    omega

theorem cat1 (y0 y1 y2 : FVec Ideal S500000x128 .f32)
    (h : Shape.Concatenates ([(⟨S500000x128, y0⟩ : (s : Shape) × (s.Idx → EReal)), ⟨S500000x128, y1⟩, ⟨S500000x128, y2⟩].map (·.1)) S500000x384 1)
    (p : Fin 500000) (k : Fin 128) (c : Fin 384) (hc : c.val = 128 + k.val) :
    concatenate S500000x384 1 [⟨S500000x128, y0⟩, ⟨S500000x128, y1⟩, ⟨S500000x128, y2⟩] h (ix2 p c) = y1 (ix2 p k) := by
  refine concatenate_apply_piece (1 : Fin S500000x384.rank) _ h (ix2 p c) 1 (by show 1 < 3; decide) S500000x128 y1 rfl rfl 128 rfl (ix2 p k) ?_ ?_
  · intro b hb
    match b with
    | ⟨0, _⟩ => rfl
    | ⟨1, _⟩ => exact absurd rfl hb
  · show 128 + k.val = c.val
    omega

theorem cat2 (y0 y1 y2 : FVec Ideal S500000x128 .f32)
    (h : Shape.Concatenates ([(⟨S500000x128, y0⟩ : (s : Shape) × (s.Idx → EReal)), ⟨S500000x128, y1⟩, ⟨S500000x128, y2⟩].map (·.1)) S500000x384 1)
    (p : Fin 500000) (k : Fin 128) (c : Fin 384) (hc : c.val = 256 + k.val) :
    concatenate S500000x384 1 [⟨S500000x128, y0⟩, ⟨S500000x128, y1⟩, ⟨S500000x128, y2⟩] h (ix2 p c) = y2 (ix2 p k) := by
  refine concatenate_apply_piece (1 : Fin S500000x384.rank) _ h (ix2 p c) 2 (by show 2 < 3; decide) S500000x128 y2 rfl rfl 256 rfl (ix2 p k) ?_ ?_
  · intro b hb
    match b with
    | ⟨0, _⟩ => rfl
    | ⟨1, _⟩ => exact absurd rfl hb
  · show 256 + k.val = c.val
    omega

/-- The first 128 rows of the decoder's matrix, read at row k and channel q. -/
theorem rows0 (w : (⟨S384x128, .f32⟩ : BufTy).Contents (Elt Ideal)) (k q : Fin 128) :
    Cert.Sage.rowsFrom 0 (by decide) w (ix2 k q) = w (ix2 (⟨k.val, Nat.lt_of_lt_of_le k.isLt (by decide)⟩ : Fin 384) q) := by
  unfold Cert.Sage.rowsFrom
  refine congrArg w (funext fun a => ?_)
  match a with
  | ⟨0, _⟩ => exact Fin.ext (Nat.zero_add _)
  | ⟨1, _⟩ => rfl

variable (x0 : (⟨S50000x128, .f32⟩ : BufTy).Contents (Elt Ideal)) (x1 : (⟨S2x1600000, .i32⟩ : BufTy).Contents (Elt Ideal)) (x2 : (⟨S2x500000, .i32⟩ : BufTy).Contents (Elt Ideal)) (x3 : (⟨S500000x128, .f32⟩ : BufTy).Contents (Elt Ideal)) (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal)) (x10 : (⟨S384x128, .f32⟩ : BufTy).Contents (Elt Ideal)) (x11 : (⟨S128, .f32⟩ : BufTy).Contents (Elt Ideal)) (x12 : (⟨S128x1, .f32⟩ : BufTy).Contents (Elt Ideal)) (x13 : (⟨S1, .f32⟩ : BufTy).Contents (Elt Ideal))

/-! ## The two layers -/

/-- The first layer's output is the layer of the node features and their aggregated means. At node p and channel q
    the reference reads row p of the means against column q of the first matrix, adds the bias at q, adds row p of
    the features against column q of the second matrix, and rectifies. -/
theorem h_eq : val_main_v28 (F := Ideal) x0 x1 x4 x5 x6
    = Cert.Sage.layer (N := 50000) x0 (val_main_v21 (F := Ideal) x0 x1) x4 x5 (Cert.Sage.biasRow x6) := by
  funext i
  obtain ⟨p, q, rfl⟩ : ∃ (p : Fin 50000) (q : Fin 128), i = ix2 p q := ⟨i 0, i 1, eq_ix2 i⟩
  have el : ∀ k : Fin 128, lidx_main_v22 (ix2 p q) k = ix2 p k := fun k => funext fun a => Fin.ext (by
    match a with | ⟨0, _⟩ => rfl | ⟨1, _⟩ => rfl)
  have er : ∀ k : Fin 128, ridx_main_v22 (ix2 p q) k = ix2 k q := fun k => funext fun a => Fin.ext (by
    match a with | ⟨0, _⟩ => rfl | ⟨1, _⟩ => rfl)
  have el' : ∀ k : Fin 128, lidx_main_v26 (ix2 p q) k = ix2 p k := fun k => funext fun a => Fin.ext (by
    match a with | ⟨0, _⟩ => rfl | ⟨1, _⟩ => rfl)
  have er' : ∀ k : Fin 128, ridx_main_v26 (ix2 p q) k = ix2 k q := fun k => funext fun a => Fin.ext (by
    match a with | ⟨0, _⟩ => rfl | ⟨1, _⟩ => rfl)
  have eb : idx_main_v23 (idx_main_v24 (ix2 p q)) = ix1 q := funext fun a => Fin.ext (by
    match a with | ⟨0, _⟩ => rfl)
  rw [val_main_v28_apply, val_main_v27_apply, val_main_v25_apply, val_main_v22_apply, val_main_v24_apply,
    val_main_v23_apply, val_main_v26_apply, val_main_call0_v0_apply, val_main_call0_cst_apply, eb]
  simp only [el, er, el', er', Ideal.maximumf_def, Ideal.addf_def, Ideal.ofBits_def, Ideal.ofBits_zero_f32]
  exact layer_point _ _ _

/-- The second aggregation is the first one's function applied to the first layer's output: both are the same
    composition of slices, comparisons, selects, broadcasts, one gather and two scatter-adds over the edge index. -/
theorem mean2_eq : val_main_v46 (F := Ideal) x0 x1 x4 x5 x6
    = val_main_v21 (F := Ideal) (val_main_v28 (F := Ideal) x0 x1 x4 x5 x6) x1 := by
  unfold val_main_v46 val_main_v38 val_main_v35 val_main_v34 val_main_v33 val_main_v30 val_main_v29 val_main_c_4
    val_main_v32 val_main_v31 val_main_c_5 val_main_v36 val_main_cst_6 val_main_v37 val_main_v45 val_main_v44
    val_main_v42 val_main_v40 val_main_cst_8 val_main_v41 val_main_v39 val_main_cst_7 val_main_v43 val_main_cst_9
  unfold val_main_v21 val_main_v13 val_main_v10 val_main_v9 val_main_v8 val_main_v5 val_main_v4 val_main_c
    val_main_v7 val_main_v6 val_main_c_0 val_main_v11 val_main_cst val_main_v12 val_main_v20 val_main_v19
    val_main_v17 val_main_v15 val_main_cst_2 val_main_v16 val_main_v14 val_main_cst_1 val_main_v18 val_main_cst_3
  rfl

/-- The second layer's output is the layer of the first layer's output and its aggregated means, with the second
    layer's matrices and bias. -/
theorem z_eq : val_main_v53 (F := Ideal) x0 x1 x4 x5 x6 x7 x8 x9
    = Cert.Sage.layer (N := 50000) (val_main_v28 (F := Ideal) x0 x1 x4 x5 x6) (val_main_v46 (F := Ideal) x0 x1 x4 x5 x6)
        x7 x8 (Cert.Sage.biasRow x9) := by
  funext i
  obtain ⟨p, q, rfl⟩ : ∃ (p : Fin 50000) (q : Fin 128), i = ix2 p q := ⟨i 0, i 1, eq_ix2 i⟩
  have el : ∀ k : Fin 128, lidx_main_v47 (ix2 p q) k = ix2 p k := fun k => funext fun a => Fin.ext (by
    match a with | ⟨0, _⟩ => rfl | ⟨1, _⟩ => rfl)
  have er : ∀ k : Fin 128, ridx_main_v47 (ix2 p q) k = ix2 k q := fun k => funext fun a => Fin.ext (by
    match a with | ⟨0, _⟩ => rfl | ⟨1, _⟩ => rfl)
  have el' : ∀ k : Fin 128, lidx_main_v51 (ix2 p q) k = ix2 p k := fun k => funext fun a => Fin.ext (by
    match a with | ⟨0, _⟩ => rfl | ⟨1, _⟩ => rfl)
  have er' : ∀ k : Fin 128, ridx_main_v51 (ix2 p q) k = ix2 k q := fun k => funext fun a => Fin.ext (by
    match a with | ⟨0, _⟩ => rfl | ⟨1, _⟩ => rfl)
  have eb : idx_main_v48 (idx_main_v49 (ix2 p q)) = ix1 q := funext fun a => Fin.ext (by
    match a with | ⟨0, _⟩ => rfl)
  rw [val_main_v53_apply, val_main_v52_apply, val_main_v50_apply, val_main_v47_apply, val_main_v49_apply,
    val_main_v48_apply, val_main_v51_apply, val_main_call1_v0_apply, val_main_call1_cst_apply, eb]
  simp only [el, er, el', er', Ideal.maximumf_def, Ideal.addf_def, Ideal.ofBits_def, Ideal.ofBits_zero_f32]
  exact layer_point _ _ _

/-! ## The decoder -/

/-- The decoder's hidden layer before it is rectified, at pair p and channel q: the product of the joined row with
    the 384 rows of the first matrix splits into the three products of the endpoint embeddings and the pair's
    attributes with the matrix's three blocks of 128 rows; then the bias at q. -/
theorem hidden_apply (p : Fin 500000) (q : Fin 128) :
    val_main_v76 (F := Ideal) x0 x1 x2 x3 x4 x5 x6 x7 x8 x9 x10 x11 (ix2 p q)
      = Cert.Sage.hidden (P := 500000) (val_main_v64 (F := Ideal) x0 x1 x2 x4 x5 x6 x7 x8 x9)
          (val_main_v71 (F := Ideal) x0 x1 x2 x4 x5 x6 x7 x8 x9) x3
          (Cert.Sage.rowsFrom 0 (by decide) x10) (Cert.Sage.rowsFrom 128 (by decide) x10)
          (Cert.Sage.rowsFrom 256 (by decide) x10) (Cert.Sage.biasRow x11) p q := by
  have el : ∀ c : Fin 384, lidx_main_v73 (ix2 p q) c = ix2 p c := fun c => funext fun a => Fin.ext (by
    match a with | ⟨0, _⟩ => rfl | ⟨1, _⟩ => rfl)
  have er : ∀ c : Fin 384, ridx_main_v73 (ix2 p q) c = ix2 c q := fun c => funext fun a => Fin.ext (by
    match a with | ⟨0, _⟩ => rfl | ⟨1, _⟩ => rfl)
  have eb : idx_main_v74 (idx_main_v75 (ix2 p q)) = ix1 q := funext fun a => Fin.ext (by
    match a with | ⟨0, _⟩ => rfl)
  rw [val_main_v76_apply, val_main_v73_apply, val_main_v75_apply, val_main_v74_apply, eb, Ideal.addf_def]
  simp only [el, er]
  rw [sum_three]
  unfold val_main_v72 Cert.Sage.hidden
  refine congrArg₂ (· + ·) (congrArg₂ (· + ·) (congrArg₂ (· + ·) ?_ ?_) ?_) rfl
  · refine Finset.sum_congr rfl fun k _ => ?_
    exact congrArg₂ (· * ·) (cat0 _ _ _ _ p k _ rfl) (rows0 x10 k q).symm
  · refine Finset.sum_congr rfl fun k _ => ?_
    exact congrArg₂ (· * ·) (cat1 _ _ _ _ p k _ rfl) rfl
  · refine Finset.sum_congr rfl fun k _ => ?_
    exact congrArg₂ (· * ·) (cat2 _ _ _ _ p k _ rfl) rfl

/-- The decoder's output at pair p: the rectified hidden layer against the second matrix's one column, summed over
    the 128 channels, plus the last bias. -/
theorem out_eq : val_main_v81 (F := Ideal) x0 x1 x2 x3 x4 x5 x6 x7 x8 x9 x10 x11 x12 x13
    = Cert.Sage.decode (P := 500000) (val_main_v64 (F := Ideal) x0 x1 x2 x4 x5 x6 x7 x8 x9)
        (val_main_v71 (F := Ideal) x0 x1 x2 x4 x5 x6 x7 x8 x9) x3
        (Cert.Sage.rowsFrom 0 (by decide) x10) (Cert.Sage.rowsFrom 128 (by decide) x10)
        (Cert.Sage.rowsFrom 256 (by decide) x10) (Cert.Sage.biasRow x11) (Cert.Sage.colAsRow x12) (Cert.Sage.cell x13) := by
  funext i
  obtain ⟨p, q, rfl⟩ : ∃ (p : Fin 500000) (q : Fin 1), i = ix2 p q := ⟨i 0, i 1, eq_ix2 i⟩
  obtain rfl : q = 0 := Subsingleton.elim _ _
  have el : ∀ k : Fin 128, lidx_main_v78 (ix2 p (0 : Fin 1)) k = ix2 p k := fun k => funext fun a => Fin.ext (by
    match a with | ⟨0, _⟩ => rfl | ⟨1, _⟩ => rfl)
  have er : ∀ k : Fin 128, ridx_main_v78 (ix2 p (0 : Fin 1)) k = ix2 k (0 : Fin 1) := fun k => funext fun a => Fin.ext (by
    match a with | ⟨0, _⟩ => rfl | ⟨1, _⟩ => rfl)
  have eb : idx_main_v79 (idx_main_v80 (ix2 p (0 : Fin 1))) = ix1 (0 : Fin 1) := funext fun a => Fin.ext (by
    match a with | ⟨0, _⟩ => rfl)
  rw [val_main_v81_apply, val_main_v78_apply, val_main_v80_apply, val_main_v79_apply, eb, Ideal.addf_def]
  unfold Cert.Sage.decode
  refine congrArg₂ (· + ·) (Finset.sum_congr rfl fun k _ => ?_) rfl
  rw [el k, er k, val_main_v77_apply, hidden_apply, val_main_call2_v0_apply, val_main_call2_cst_apply,
    Ideal.maximumf_def, Ideal.ofBits_def, Ideal.ofBits_zero_f32]
  rfl

/-- The result array is the decoder's one column read as a vector: element p is row p of the column. -/
theorem result_apply (p : Fin 500000) :
    val_main_v82 (F := Ideal) x0 x1 x2 x3 x4 x5 x6 x7 x8 x9 x10 x11 x12 x13 (ix1 p)
      = val_main_v81 (F := Ideal) x0 x1 x2 x3 x4 x5 x6 x7 x8 x9 x10 x11 x12 x13 (ix2 p (0 : Fin 1)) := by
  rw [val_main_v82_apply]
  refine congrArg _ (funext fun a => Fin.ext ?_)
  match a with
  | ⟨0, _⟩ => exact Nat.div_one _
  | ⟨1, _⟩ => rfl

end Cert.ReferenceIdeal.RefValue

end
-- ==== Proof.Bridge.lean ====
/-
  The idealized kernel's result and the idealized reference's result are one function of the fourteen arguments.

  Both programs aggregate neighbours' features by the same host operations; those chains are compared once, as whole
  functions (`mean_eq`, `gather0_eq`, `gather1_eq`), and never opened again. What remains differs only in layout and
  in the order of additions:

  * the kernel re-reads its weights in a narrower float format, which on the extended reals changes nothing, and
    takes each bias as the one row of a `[1, 128]` array, the decoder's first matrix as three blocks of 128 rows, its
    second matrix as a row and its last bias as a cell: the readings `biasRow`, `rowsFrom`, `colAsRow`, `cell` of the
    original arrays (`bias_eq`, `block0_eq` … `cell_eq`);
  * a layer is the same function whichever of these readings it is given (`Cert.Sage.layer_congr`), and the
    reference's layer is that function (`RefValue.h_eq`, `z_eq`, with `mean2_eq` for the second aggregation): so the
    two first layers agree (`h_bridge`), hence the two second layers (`z_bridge`), hence the gathered endpoint rows;
  * the decoder likewise (`Cert.Sage.decode_congr`, `RefValue.out_eq`), and both programs flatten its column the same
    way (`out_bridge`).
-/
import proofs.«142372_j18348100288600_1_alg».proof.Proof.Fold
import proofs.«142372_j18348100288600_1_alg».proof.Proof.RefValue
import proofs.«142372_j18348100288600_1_alg».proof.Proof.SpecLaws
import proofs.«142372_j18348100288600_1_alg».proof.Proof.Views
import Idealize.ShloMosaic.Lib.Pipeline.Value
import Idealize.ShloMosaic.Lib.ValueLayout

set_option maxRecDepth 16384

noncomputable section

namespace Cert.Proof.Bridge

open Cert.KernelIdeal Cert.KernelIdeal.Gen Cert.KernelIdeal.Fold Cert.ReferenceIdeal.Read Cert.ReferenceIdeal.RefValue
open Idealize.ShloMosaic Idealize.ShloMosaic.ValueIdx

/-! ## The shared host chains, compared once -/

/-- The kernel program's mean aggregation is the reference's first aggregation stage: the same operations on the same
    two rows of the edge list. -/
theorem mean_eq {F : FTy → Type} [FloatOps F] (x : FVec F S50000x128 .f32) (ei : IVec S2x1600000 32) :
    meanAgg x (srcOf ei) (dstOf ei) = val_main_v21 (F := F) x ei := by
  unfold meanAgg srcOf dstOf
  unfold val_main_v21 val_main_v13 val_main_v10 val_main_v9 val_main_v8 val_main_v5 val_main_v4 val_main_c
    val_main_v7 val_main_v6 val_main_c_0 val_main_v11 val_main_cst val_main_v12 val_main_v20 val_main_v19
    val_main_v17 val_main_v15 val_main_cst_2 val_main_v16 val_main_v14 val_main_cst_1 val_main_v18 val_main_cst_3
    val_main_v3 val_main_v2 val_main_v1 val_main_v0
  rfl

/-- The rows gathered at the pair list's first row are the reference's gather at its first index stage. -/
theorem gather0_eq {F : FTy → Type} [FloatOps F] (z : FVec F S50000x128 .f32) (ep : IVec S2x500000 32) :
    gatherRows z (rowOf0 ep)
      = Host.gather Cert.ReferenceIdeal.gather_S50000x128_S500000x1_S500000x128_1_0_n_n_0_1_1128 z (val_main_v63 (F := F) ep) := by
  unfold gatherRows rowOf0
  unfold val_main_v63 val_main_v62 val_main_v59 val_main_v58 val_main_c_10 val_main_v61 val_main_v60 val_main_c_11
    val_main_v55 val_main_v54
  rfl

/-- The same at the pair list's second row. -/
theorem gather1_eq {F : FTy → Type} [FloatOps F] (z : FVec F S50000x128 .f32) (ep : IVec S2x500000 32) :
    gatherRows z (rowOf1 ep)
      = Host.gather Cert.ReferenceIdeal.gather_S50000x128_S500000x1_S500000x128_1_0_n_n_0_1_1128 z (val_main_v70 (F := F) ep) := by
  unfold gatherRows rowOf1
  unfold val_main_v70 val_main_v69 val_main_v66 val_main_v65 val_main_c_12 val_main_v68 val_main_v67 val_main_c_13
    val_main_v57 val_main_v56
  rfl

/-! ## The re-laid weights are the four readings of the originals, where a layer or the decoder reads them -/

theorem bias_eq (b : FVec Ideal S128 .f32) (q : Fin 128) :
    shapeCast S1x128 b shapeCasts_S128_S1x128 (ix2 0 q) = Cert.Sage.biasRow b (ix2 0 q) :=
  shapeCast_a_1a_apply b shapeCasts_S128_S1x128 0 q

theorem block0_eq (w : FVec Ideal S384x128 .f32) (k q : Fin 128) :
    blockOf0 w (ix2 k q) = Cert.Sage.rowsFrom 0 (by decide) w (ix2 k q) := by
  unfold blockOf0
  exact slice2_axis0_apply 0 w slices_S384x128_S128x128_0_0 k q _ rfl

theorem block1_eq (w : FVec Ideal S384x128 .f32) (k q : Fin 128) :
    blockOf1 w (ix2 k q) = Cert.Sage.rowsFrom 128 (by decide) w (ix2 k q) := by
  unfold blockOf1
  exact slice2_axis0_apply 128 w slices_S384x128_S128x128_128_0 k q _ rfl

theorem block2_eq (w : FVec Ideal S384x128 .f32) (k q : Fin 128) :
    blockOf2 w (ix2 k q) = Cert.Sage.rowsFrom 256 (by decide) w (ix2 k q) := by
  unfold blockOf2
  exact slice2_axis0_apply 256 w slices_S384x128_S128x128_256_0 k q _ rfl

/-- A `[128, 1]` column cast to a `[1, 128]` row reads, at channel `q`, the column at `q`: both are element `q` in
    row-major order. -/
theorem col_eq (w : FVec Ideal S128x1 .f32) (q : Fin 128) :
    shapeCast S1x128 w shapeCasts_S128x1_S1x128 (ix2 0 q) = Cert.Sage.colAsRow w (ix2 0 q) := by
  refine shapeCast_apply w shapeCasts_S128x1_S1x128 (ix2 (0 : Fin 1) q) (ix2 q (0 : Fin 1)) ?_
  rw [Shape.rowMajor_val_two, Shape.rowMajor_val_two]
  show q.val * 1 + 0 = 0 * 128 + q.val
  omega

theorem cell_eq (b : FVec Ideal S1 .f32) :
    shapeCast S1x1 b shapeCasts_S1_S1x1 (ix2 0 0) = Cert.Sage.cell b (ix2 0 0) :=
  shapeCast_a_1a_apply b shapeCasts_S1_S1x1 0 0

variable (x0 : FVec Ideal S50000x128 .f32) (x1 : IVec S2x1600000 32) (x2 : IVec S2x500000 32)
  (x3 : FVec Ideal S500000x128 .f32) (x4 x5 : FVec Ideal S128x128 .f32) (x6 : FVec Ideal S128 .f32)
  (x7 x8 : FVec Ideal S128x128 .f32) (x9 : FVec Ideal S128 .f32) (x10 : FVec Ideal S384x128 .f32)
  (x11 : FVec Ideal S128 .f32) (x12 : FVec Ideal S128x1 .f32) (x13 : FVec Ideal S1 .f32)

/-! ## The two layers -/

/-- The first layer as the kernel program computes it. -/
abbrev hOf : FVec Ideal S50000x128 .f32 :=
  Cert.Sage.layer (N := 50000) x0 (meanAgg x0 (srcOf x1) (dstOf x1)) (truncf .bf16 x4 bitsLt_bf16_f32)
    (truncf .bf16 x5 bitsLt_bf16_f32) (shapeCast S1x128 x6 shapeCasts_S128_S1x128)

theorem h_bridge : hOf x0 x1 x4 x5 x6 = val_main_v28 (F := Ideal) x0 x1 x4 x5 x6 := by
  rw [h_eq, ← mean_eq]
  exact Cert.Sage.layer_congr x0 (meanAgg x0 (srcOf x1) (dstOf x1)) x4 x5 (Cert.Sage.biasRow x6) _ _ _
    (fun _ _ => rfl) (fun _ _ => rfl) (bias_eq x6)

/-- The second layer as the kernel program computes it. -/
abbrev zOf : FVec Ideal S50000x128 .f32 :=
  Cert.Sage.layer (N := 50000) (hOf x0 x1 x4 x5 x6) (meanAgg (hOf x0 x1 x4 x5 x6) (srcOf x1) (dstOf x1))
    (truncf .bf16 x7 bitsLt_bf16_f32) (truncf .bf16 x8 bitsLt_bf16_f32) (shapeCast S1x128 x9 shapeCasts_S128_S1x128)

theorem z_bridge : zOf x0 x1 x4 x5 x6 x7 x8 x9 = val_main_v53 (F := Ideal) x0 x1 x4 x5 x6 x7 x8 x9 := by
  rw [z_eq, mean2_eq, ← mean_eq, ← h_bridge]
  exact Cert.Sage.layer_congr (hOf x0 x1 x4 x5 x6) (meanAgg (hOf x0 x1 x4 x5 x6) (srcOf x1) (dstOf x1)) x7 x8
    (Cert.Sage.biasRow x9) _ _ _ (fun _ _ => rfl) (fun _ _ => rfl) (bias_eq x9)

/-! ## The decoder and the result -/

/-- The decoder's column as the kernel program computes it. -/
abbrev outOf : FVec Ideal S500000x1 .f32 :=
  Cert.Sage.decode (P := 500000) (gatherRows (zOf x0 x1 x4 x5 x6 x7 x8 x9) (rowOf0 x2))
    (gatherRows (zOf x0 x1 x4 x5 x6 x7 x8 x9) (rowOf1 x2)) x3 (blockOf0 x10) (blockOf1 x10) (blockOf2 x10)
    (shapeCast S1x128 x11 shapeCasts_S128_S1x128) (shapeCast S1x128 x12 shapeCasts_S128x1_S1x128)
    (shapeCast S1x1 x13 shapeCasts_S1_S1x1)

theorem col_bridge : outOf x0 x1 x2 x3 x4 x5 x6 x7 x8 x9 x10 x11 x12 x13
    = val_main_v81 (F := Ideal) x0 x1 x2 x3 x4 x5 x6 x7 x8 x9 x10 x11 x12 x13 := by
  rw [out_eq]
  have hu : val_main_v64 (F := Ideal) x0 x1 x2 x4 x5 x6 x7 x8 x9 = gatherRows (zOf x0 x1 x4 x5 x6 x7 x8 x9) (rowOf0 x2) := by
    rw [gather0_eq, z_bridge]; rfl
  have hv : val_main_v71 (F := Ideal) x0 x1 x2 x4 x5 x6 x7 x8 x9 = gatherRows (zOf x0 x1 x4 x5 x6 x7 x8 x9) (rowOf1 x2) := by
    rw [gather1_eq, z_bridge]; rfl
  rw [hu, hv]
  exact Cert.Sage.decode_congr _ _ x3 _ _ _ _ _ _ _ _ _ _ _ _ (block0_eq x10) (block1_eq x10) (block2_eq x10)
    (bias_eq x11) (col_eq x12) (cell_eq x13)

/-- The kernel program's flattened column is the reference's result. -/
theorem out_bridge :
    shapeCast S500000 (outOf x0 x1 x2 x3 x4 x5 x6 x7 x8 x9 x10 x11 x12 x13) shapeCasts_S500000x1_S500000
      = val_main_v82 (F := Ideal) x0 x1 x2 x3 x4 x5 x6 x7 x8 x9 x10 x11 x12 x13 := by
  funext i
  obtain ⟨p, rfl⟩ : ∃ p : Fin 500000, i = ix1 p := ⟨i 0, eq_ix1 i⟩
  rw [result_apply, ← col_bridge]
  refine shapeCast_apply _ shapeCasts_S500000x1_S500000 (ix1 p) (ix2 p (0 : Fin 1)) ?_
  rw [Shape.rowMajor_val_two, Shape.rowMajor_val_one]
  show p.val * 1 + 0 = p.val
  omega

end Cert.Proof.Bridge

end
-- ==== Proof.lean ====
/-
  A two-layer GraphSAGE encoder with mean aggregation and a link decoder: the Pallas kernels against the plain
  reference, over the extended reals.

  The program runs three kernels among host operations. Each GraphSAGE layer's kernel computes, for 5000 nodes at a
  time, max (mean · Wl + x · Wr + b, 0), its two products in a narrower float format into zero accumulators; the
  decoder's kernel computes, for 5000 pairs at a time, the lane sum of max (zu · Wu + zv · Wv + ea · We + b₁, 0)
  against the second matrix's row, plus its bias. The gathers of neighbours' and endpoints' rows and the scatter-adds
  of the aggregation are host operations, the same in both programs.

  The claim, conjunct by conjunct:
  * the three frames: the two kernel programs by the generated frame over their seven segments, the reference by its
    run with the result dropped;
  * the idealization rewrote nothing, so what it preserves is trivially true;
  * equal results. The kernel program's run leaves in its result array what the fold through its segments leaves
    (`ResultRun.run_result`); read back boundary by boundary that is the flattened decoder column of the arguments
    (`Fold.result`: each kernel's output array is the layer, or the decoder, of the arrays it finds, because a block of
    rows of either depends only on the same rows of its row-indexed operands and the blocks tile the array); and that
    function of the arguments is the reference's result (`Bridge.out_bridge`): the shared host chains are one
    function, a change of float format is the identity on the extended reals, the bias may be added after the second
    product as well as before it because addition there is commutative and associative, and the reference's one
    product over the 384 columns of a concatenation is the sum of the kernel's three products over 128. No step uses
    that the inputs are finite.
-/
import proofs.«142372_j18348100288600_1_alg».proof.Defs
import proofs.«142372_j18348100288600_1_alg».proof.Proof.Gen.Kernel
import proofs.«142372_j18348100288600_1_alg».proof.Proof.Gen.Kernel.Skeleton
import proofs.«142372_j18348100288600_1_alg».proof.Proof.Gen.Kernel.Launch
import proofs.«142372_j18348100288600_1_alg».proof.Proof.Gen.Kernel.Points
import proofs.«142372_j18348100288600_1_alg».proof.Proof.Gen.Kernel.Frame
import proofs.«142372_j18348100288600_1_alg».proof.Proof.Gen.KernelIdeal
import proofs.«142372_j18348100288600_1_alg».proof.Proof.Gen.KernelIdeal.Skeleton
import proofs.«142372_j18348100288600_1_alg».proof.Proof.Gen.KernelIdeal.Launch
import proofs.«142372_j18348100288600_1_alg».proof.Proof.Gen.KernelIdeal.Points
import proofs.«142372_j18348100288600_1_alg».proof.Proof.Gen.KernelIdeal.Frame
import proofs.«142372_j18348100288600_1_alg».proof.Proof.Gen.ReferenceIdeal
import proofs.«142372_j18348100288600_1_alg».proof.Proof.Gen.ReferenceIdeal.Run
import proofs.«142372_j18348100288600_1_alg».proof.Proof.Gen.ReferenceIdeal.Read
import proofs.«142372_j18348100288600_1_alg».proof.Proof.Gen.Pre_finite_inputs
import proofs.«142372_j18348100288600_1_alg».proof.Proof.ResultRun
import proofs.«142372_j18348100288600_1_alg».proof.Proof.Fold
import proofs.«142372_j18348100288600_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with their result array at the reference's last stage of the kernel program's
    arguments: the kernel program by its run read back through @main and the bridge, the reference by its run and the
    agreement of its arguments with the kernel program's. -/
theorem algebraic : Cert.algebraic_KernelIdeal_ReferenceIdeal := by
  intro m ρ m' ρ' _ hagree
  refine ⟨fun c => Cert.ReferenceIdeal.Read.val_main_v82 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13)), ?_, ?_⟩
  · exact (θ_run Cert.KernelIdeal.defs _ _).mono
      (fun r h c => ⟨(h c).1.trans ((Cert.KernelIdeal.Fold.result m ρ c).trans
          (Cert.Proof.Bridge.out_bridge _ _ _ _ _ _ _ _ _ _ _ _ _ _)), (h c).2⟩)
      (Cert.KernelIdeal.ResultRun.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v82_eq, h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
